-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x256 : Shape := ⟨2, ![128, 256]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_v13 : IVec S_ 1) (main_v15 : IVec S640000 32) (main_v16 : IVec S640000 32) : IVec S_ 1 :=
  let main_v17 : IVec S640000 1 := cmpi .sge main_v15 main_v16
  let main_c_5 : IVec S_ 1 := constantI S_ 1 1#1
  let main_v18 : IVec S_ 1 := (fun x v => Host.reduce IntOp.andi x v reducesTo_S640000_S_d0 h_S_) main_v17 main_c_5
  let main_v19 : IVec S_ 1 := andi main_v13 main_v18
  main_v19

def fn {F : FTy → Type} [FloatOps F] (main_arg0 : FVec F S10000x128 .f32) (main_arg1 : IVec S2x640000 32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x640000 32 := (extractStridedSlice S1x640000 ![0, 0] · slices_S2x640000_S1x640000_0_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_v13 main_v15 main_v16
-- ==== Kernel.lean ====
abbrev S10000x128 : Shape := ⟨2, ![10000, 128]⟩
abbrev S2x640000 : Shape := ⟨2, ![2, 640000]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S2x250x1x1280 : Shape := ⟨4, ![2, 250, 1, 1280]⟩
abbrev S10240x128 : Shape := ⟨2, ![10240, 128]⟩
abbrev S2x10240x128 : Shape := ⟨3, ![2, 10240, 128]⟩
abbrev S1x1x1x1280 : Shape := ⟨4, ![1, 1, 1, 1280]⟩
abbrev S1x10240x128 : Shape := ⟨3, ![1, 10240, 128]⟩
abbrev S1x1280 : Shape := ⟨2, ![1, 1280]⟩
abbrev S1280x128 : Shape := ⟨2, ![1280, 128]⟩
abbrev S1280x1 : Shape := ⟨2, ![1280, 1]⟩
abbrev S1280x1280 : Shape := ⟨2, ![1280, 1280]⟩
abbrev S1x1280x128 : Shape := ⟨3, ![1, 1280, 128]⟩
abbrev S1280 : Shape := ⟨1, ![1280]⟩
abbrev S10000x256 : Shape := ⟨2, ![10000, 256]⟩
abbrev S256x128 : Shape := ⟨2, ![256, 128]⟩
abbrev S1x128 : Shape := ⟨2, ![1, 128]⟩

abbrev nBuf : Space → Nat
  | .hbm => 56
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S640000, .i1⟩
  | .hbm, ⟨23, _⟩ => ⟨S_, .i32⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S2x250x1x1280, .i32⟩
  | .hbm, ⟨28, _⟩ => ⟨S2x250x1x1280, .i32⟩
  | .hbm, ⟨29, _⟩ => ⟨S_, .i32⟩
  | .hbm, ⟨30, _⟩ => ⟨S_, .f32⟩
  | .hbm, ⟨31, _⟩ => ⟨S10240x128, .f32⟩
  | .hbm, ⟨32, _⟩ => ⟨S2x10240x128, .f32⟩
  | .hbm, ⟨33, _⟩ => ⟨S2x10240x128, .f32⟩
  | .hbm, ⟨34, _⟩ => ⟨S1x10240x128, .f32⟩
  | .hbm, ⟨35, _⟩ => ⟨S10240x128, .f32⟩
  | .hbm, ⟨36, _⟩ => ⟨S1x10240x128, .f32⟩
  | .hbm, ⟨37, _⟩ => ⟨S10240x128, .f32⟩
  | .hbm, ⟨38, _⟩ => ⟨S10240x128, .f32⟩
  | .hbm, ⟨39, _⟩ => ⟨S1x10240x128, .f32⟩
  | .hbm, ⟨40, _⟩ => ⟨S10240x128, .f32⟩
  | .hbm, ⟨41, _⟩ => ⟨S1x10240x128, .f32⟩
  | .hbm, ⟨42, _⟩ => ⟨S10240x128, .f32⟩
  | .hbm, ⟨43, _⟩ => ⟨S10240x128, .f32⟩
  | .hbm, ⟨44, _⟩ => ⟨S_, .f32⟩
  | .hbm, ⟨45, _⟩ => ⟨S_, .f32⟩
  | .hbm, ⟨46, _⟩ => ⟨S10240x128, .f32⟩
  | .hbm, ⟨47, _⟩ => ⟨S10240x128, .f32⟩
  | .hbm, ⟨48, _⟩ => ⟨S10240x128, .f32⟩
  | .hbm, ⟨49, _⟩ => ⟨S10000x128, .f32⟩
  | .hbm, ⟨50, _⟩ => ⟨S10000x256, .f32⟩
  | .hbm, ⟨51, _⟩ => ⟨S256x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .local _ .vmem, ⟨0, _⟩ => ⟨S1x1x1x1280, .i32⟩
  | .local _ .vmem, ⟨1, _⟩ => ⟨S1x1x1x1280, .i32⟩
  | .local _ .vmem, ⟨2, _⟩ => ⟨S1x1x1x1280, .i32⟩
  | .local _ .vmem, ⟨3, _⟩ => ⟨S1x1x1x1280, .i32⟩
  | .local _ .vmem, ⟨4, _⟩ => ⟨S10240x128, .f32⟩
  | .local _ .vmem, ⟨5, _⟩ => ⟨S1x10240x128, .f32⟩
  | .local _ .vmem, ⟨6, _⟩ => ⟨S1x10240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_call2_v0 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_call3_v0 : Ref sig .tc := ⟨.hbm, 45, rfl⟩
abbrev main_call3_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 250], ![false, false]⟩

@[reducible] def k0_t1_loop : Scf.Loop 32 :=
  let c0_i32_8 : BitVec 32 := 0#32
  let c8_i32 : BitVec 32 := 8#32
  let v8 : BitVec 32 := Scalar.addi c0_i32_8 c8_i32
  let c1_i32 : BitVec 32 := 1#32
  ⟨c0_i32_8, v8, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c1280_i32 : BitVec 32 := 1280#32
  let v12 : BitVec 32 := Scalar.muli arg7 c1280_i32
  v12
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c1280_i32 : BitVec 32 := 1280#32
  let v12 : BitVec 32 := Scalar.muli arg7 c1280_i32
  let v13 : BitVec 32 := v12
  let v14 : Index := Scalar.indexCast v13
  let c0_14 : Index := 0#32
  ![v14.toNat, 0]
@[reducible] def k0_t2_loop : Scf.Loop 32 :=
  let c0_i32_10 : BitVec 32 := 0#32
  let c8_i32_11 : BitVec 32 := 8#32
  let v11 : BitVec 32 := Scalar.addi c0_i32_10 c8_i32_11
  let c1_i32_12 : BitVec 32 := 1#32
  ⟨c0_i32_10, v11, c1_i32_12⟩
def k0_mult2 (k0_t2 : Fin k0_t2_loop.trips) : BitVec 32 :=
  let c0_i32_10 : BitVec 32 := 0#32
  let c1_i32_12 : BitVec 32 := 1#32
  let arg7 : BitVec 32 := Scf.iv c0_i32_10 c1_i32_12 k0_t2
  let c1280_i32 : BitVec 32 := 1280#32
  let v12 : BitVec 32 := Scalar.muli arg7 c1280_i32
  v12
def k0_off2 (k0_t2 : Fin k0_t2_loop.trips) : Fin 3 → Nat :=
  let c0_15 : Index := 0#32
  let c0_i32_10 : BitVec 32 := 0#32
  let c1_i32_12 : BitVec 32 := 1#32
  let arg7 : BitVec 32 := Scf.iv c0_i32_10 c1_i32_12 k0_t2
  let c1280_i32 : BitVec 32 := 1280#32
  let v12 : BitVec 32 := Scalar.muli arg7 c1280_i32
  let v13 : BitVec 32 := v12
  let v24 : Index := Scalar.indexCast v13
  let c0_16 : Index := 0#32
  ![0, v24.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x10240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x10240x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  shapeCasts_S640000_S2x250x1x1280 : S640000.ShapeCasts S2x250x1x1280
  pads_S10000x128_S10240x128_02400_000 : S10000x128.Pads (![0, 0] : Fin 2 → Nat) ![240, 0] ![0, 0] S10240x128
  h_S_ : 0 < S_.numel
  inb_S1x10240x128_S1x10240x128_0_0_0 : ∀ a, (![0, 0, 0] : Fin 3 → Nat) a + S1x10240x128.size a ≤ S1x10240x128.size a
  h_S1x10240x128 : 0 < S1x10240x128.numel
  shapeCasts_S1x10240x128_S10240x128 : S1x10240x128.ShapeCasts S10240x128
  shapeCasts_S10240x128_S1x10240x128 : S10240x128.ShapeCasts S1x10240x128
  inb_S1x1x1x1280_S1x1x1x1280_0_0_0_0 : ∀ a, (![0, 0, 0, 0] : Fin 4 → Nat) a + S1x1x1x1280.size a ≤ S1x1x1x1280.size a
  h_S1x1x1x1280 : 0 < S1x1x1x1280.numel
  shapeCasts_S1x1x1x1280_S1x1280 : S1x1x1x1280.ShapeCasts S1x1280
  h_S1280x128 : 0 < S1280x128.numel
  shapeCasts_S1280x128_S1280x128 : S1280x128.ShapeCasts S1280x128
  bitsLt_bf16_f32 : FTy.bits .bf16 < FTy.bits .f32
  iota_S1280x1_d0_w32 : S1280x1.Iotas .tc 32 [0]
  broadcasts_S1280x1_S1280x1280 : S1280x1.Broadcasts S1280x1280
  broadcasts_S1x1280_S1280x1280 : S1x1280.Broadcasts S1280x1280
  natLt_1_32 : 1 < 32
  h_S1x1280x128 : 0 < S1x1280x128.numel
  shapeCasts_S1x1280x128_S1280x128 : S1x1280x128.ShapeCasts S1280x128
  shapeCasts_S1280x128_S1x1280x128 : S1280x128.ShapeCasts S1x1280x128
  reduces_S1280x1280_S1280 : S1280x1280.Reduces [1] S1280
  shapeCasts_S1280_S1280x1 : S1280.ShapeCasts S1280x1
  shapeCasts_S1280x1_S1280x1 : S1280x1.ShapeCasts S1280x1
  broadcasts_S1280x1_S1280x128 : S1280x1.Broadcasts S1280x128
  slices_S2x10240x128_S1x10240x128_0_0_0 : S2x10240x128.Slices ![0, 0, 0] S1x10240x128
  slices_S2x10240x128_S1x10240x128_1_0_0 : S2x10240x128.Slices ![1, 0, 0] S1x10240x128
  bcast_S_S10240x128 : S_.BroadcastsInDim S10240x128 (![] : Fin 0 → Fin S10240x128.rank)
  slices_S10240x128_S10000x128_0_0 : S10240x128.Slices ![0, 0] S10000x128
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S1280x1280_S1280x128_S1280x128_0_0_1_1_n_n_wf : DotDims.WF S1280x1280 S1280x128 S1280x128 [0] [0] [1] [1] [] []
  dot_S1280x1280_S1280x128_S1280x128_1_0_0_1_n_n_wf : DotDims.WF S1280x1280 S1280x128 S1280x128 [1] [0] [0] [1] [] []
  dot_S10000x256_S256x128_S10000x128_1_0_0_1_n_n_wf : DotDims.WF S10000x256 S256x128 S10000x128 [1] [0] [0] [1] [] []
  hrank0 : 0 < grid0.rank
  k0_t1_ok : k0_t1_loop.OK
  k0_mult1_dvd : ∀ k0_t1 : Fin k0_t1_loop.trips, 1280 ∣ (k0_mult1 k0_t1).toNat
  k0_off1_inb : ∀ k0_t1 : Fin k0_t1_loop.trips, ∀ a, (k0_off1 k0_t1) a + S1280x128.size a ≤ S10240x128.size a
  k0_t2_ok : k0_t2_loop.OK
  k0_mult2_dvd : ∀ k0_t2 : Fin k0_t2_loop.trips, 1280 ∣ (k0_mult2 k0_t2).toNat
  k0_off2_inb : ∀ k0_t2 : Fin k0_t2_loop.trips, ∀ a, (k0_off2 k0_t2) a + S1x1280x128.size a ≤ S1x10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x1280.size a ≤ S2x250x1x1280.size a
  hwx0_0 : ∀ i : grid0.Coords, EltTy.bits .i32 = 32 ∨ (Rect.block (s := S2x250x1x1280) S1x1x1x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1280.size a ≤ S2x250x1x1280.size a
  hwx0_1 : ∀ i : grid0.Coords, EltTy.bits .i32 = 32 ∨ (Rect.block (s := S2x250x1x1280) S1x1x1x1280.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x128.size a ≤ S10240x128.size a
  hwx0_2 : ∀ i : grid0.Coords, EltTy.bits .f32 = 32 ∨ (Rect.block (s := S10240x128) S10240x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10240x128.size a ≤ S2x10240x128.size a
  hwx0_3 : ∀ i : grid0.Coords, EltTy.bits .f32 = 32 ∨ (Rect.block (s := S2x10240x128) S1x10240x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10240x128.size a ≤ S2x10240x128.size a
  hwx0_4 : ∀ i : grid0.Coords, EltTy.bits .f32 = 32 ∨ (Rect.block (s := S2x10240x128) S1x10240x128.size (cc0_transform_4 i) (hinb0_4 i)).WholeWords (EltTy.packing .f32)

variable [Facts₀]

def dot_S1280x1280_S1280x128_S1280x128_0_0_1_1_n_n : DotDims S1280x1280 S1280x128 S1280x128 where
  lhsContracting := [0]
  rhsContracting := [0]
  lhsNonContracting := [1]
  rhsNonContracting := [1]
  lhsBatch := []
  rhsBatch := []
  wf := dot_S1280x1280_S1280x128_S1280x128_0_0_1_1_n_n_wf
def dot_S1280x1280_S1280x128_S1280x128_1_0_0_1_n_n : DotDims S1280x1280 S1280x128 S1280x128 where
  lhsContracting := [1]
  rhsContracting := [0]
  lhsNonContracting := [0]
  rhsNonContracting := [1]
  lhsBatch := []
  rhsBatch := []
  wf := dot_S1280x1280_S1280x128_S1280x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_v11) S1x1x1x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1x1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10240x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S1x10240x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S1x10240x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S10000x128, .f32⟩
  | .hbm, ⟨19, _⟩ => ⟨S640000x1, .i32⟩
  | .hbm, ⟨20, _⟩ => ⟨S10000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S256x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Trips.lean ====
/-
  The two counted loops of the kernel body, read as values.

  The first loop walks the eight row tiles of the padded table and carries a [1280, 128] block: trip `k` adds to it the
  product of tile `k`'s one-hot block (rows of the tile against the chunk's source ids) with tile `k` of the table.
  The second loop walks the same eight tiles of the two output blocks: trip `k` reads tile `k` of each, adds the
  scatter product (resp. the lane count) and stores it back, so its one piece per output sits at row offset `1280 k`
  and depends only on what tile `k` held before the loop.
-/
import proofs.«410679_j74045236183291_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Trips

open Cert.KernelIdeal Cert.KernelIdeal.Gen

variable {F : FTy → Type} [FloatOps F]

/-- Tile `k` of the padded table, and tile `k` of an output block. -/
abbrev rect1 (k : Fin k0_t1_loop.trips) : Rect S10240x128 := Rect.unit (k0_off1 k) S1280x128.size (k0_off1_inb k)
abbrev rect2 (k : Fin k0_t2_loop.trips) : Rect S1x10240x128 := Rect.unit (k0_off2 k) S1x1280x128.size (k0_off2_inb k)

/-- One trip of the first loop yields the step's payload of the carried block and tile `k` of the table. -/
theorem tripR_eq (𝒱 : Variants) (c : Dev nD) (bd : Option 𝒱.V) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (v3 : Vec F S1x1x1x1280 .i32) (X4 : BufTy.Contents (Elt F) arg4.view.ty)
    (k : Fin k0_t1_loop.trips) (acc : FVec F S1280x128 .f32) :
    tripR_k0_t1 (F := F) 𝒱 c bd i arg2 harg2 arg3 harg3 arg4 harg4 arg5 harg5 arg6 harg6 v3 X4 k acc
      = k0_pay4 v3 k acc (View.ld (arg4.view.read (Elt F) X4) (rect1 k)) := by
  unfold tripR_k0_t1 trip_k0_t1
  rfl

/-- One trip of the second loop stores one piece per output at tile `k`: the payloads of what tile `k` held. -/
theorem tripL_eq (𝒱 : Variants) (c : Dev nD) (bd : Option 𝒱.V) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (v5 : Vec F S1x1x1x1280 .i32) (v9 : FVec F S1280x128 .f32)
    (k : Fin k0_t2_loop.trips) (f5 : BufTy.Contents (Elt F) arg5.view.ty) (f6 : BufTy.Contents (Elt F) arg6.view.ty) :
    tripL_k0_t2 (F := F) 𝒱 c bd i arg2 harg2 arg3 harg3 arg4 harg4 arg5 harg5 arg6 harg6 v5 v9 k f5 f6
      = ([⟨rect2 k, k0_pay6 v5 v9 k (View.ld (arg5.view.read (Elt F) f5) (rect2 k))⟩],
         [⟨rect2 k, k0_pay7 v5 k (View.ld (arg6.view.read (Elt F) f6) (rect2 k))⟩]) := by
  unfold tripL_k0_t2 trip_k0_t2
  rfl

/-- The carried block before trip `n` of the first loop: the fold of the tile steps from the zero block. -/
def gath (v3 : Vec F S1x1x1x1280 .i32) (X : Vec F S10240x128 .f32) : ℕ → FVec F S1280x128 .f32
  | 0 => k0_pay3
  | n + 1 => if h : n < k0_t1_loop.trips then k0_pay4 v3 ⟨n, h⟩ (gath v3 X n) (View.ld X (rect1 ⟨n, h⟩)) else gath v3 X n

theorem st_eq_gath (𝒱 : Variants) (c : Dev nD) (bd : Option 𝒱.V) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (v3 : Vec F S1x1x1x1280 .i32) (X4 : BufTy.Contents (Elt F) arg4.view.ty) (n : ℕ) :
    st_k0_t1 (F := F) 𝒱 c bd i arg2 harg2 arg3 harg3 arg4 harg4 arg5 harg5 arg6 harg6 v3 X4 k0_pay3 n = gath v3 (arg4.view.read (Elt F) X4) n := by
  induction n with
  | zero => rfl
  | succ n ih =>
    rw [st_k0_t1.eq_2, gath]
    unfold st_k0_t1Step
    by_cases h : n < k0_t1_loop.trips
    · rw [dif_pos h, dif_pos h, tripR_eq, ih]
    · rw [dif_neg h, dif_neg h, ih]

end Cert.KernelIdeal.Trips

end
-- ==== Proof.Pieces.lean ====
/-
  What the body leaves in the two output blocks, tile by tile.

  The second loop's trip `k` stores, into each output block, ONE piece at rows `1280 k … 1280 k + 1279`. The eight
  tiles are disjoint, so a trip reads in its own tile exactly what the block held before the loop, and an element of
  tile `k` ends holding trip `k`'s payload whatever lies underneath (the contents found there, or a zero fill).
-/
import proofs.«410679_j74045236183291_3_alg».proof.Proof.Trips

set_option maxRecDepth 16384

noncomputable section

open Idealize.ShloMosaic Idealize.ShloMosaic.TcCoe Idealize.SL.Sem Idealize.ShloMosaic.Tactic

namespace Cert.KernelIdeal.Trips

open Cert.KernelIdeal Cert.KernelIdeal.Gen

variable {F : FTy → Type} [FloatOps F]

/-- An element of tile `k` lies in no other tile: on the row axis it sits at `1280 k + x` with `x < 1280`. -/
theorem rect2_emb_not_mem (k j : Fin k0_t2_loop.trips) (hjk : j ≠ k) (x : (rect2 k).shape.Idx) :
    (rect2 k).emb x ∉ (rect2 j).set := by
  intro h
  have h1 := (Rect.mem_set_unit.mp h) 1
  have e : (((rect2 k).emb x) 1 : Nat) = k0_off2 k 1 + 1 * (x 1 : Nat) := Rect.emb_apply _ x 1
  have hx : (x 1 : Nat) < 1280 := (x 1).isLt
  have hkv : k0_off2 k 1 = 1280 * k.val := by rw [k0_off2_eq]; rfl
  have hjv : k0_off2 j 1 = 1280 * j.val := by rw [k0_off2_eq]; rfl
  have hs : S1x1280x128.size 1 = 1280 := rfl
  rw [e, hkv, hjv, hs] at h1
  exact hjk (Fin.ext (by omega))

/-- The pieces the first `n` trips store into the sum block (last first), over the rows `X3` the loop found. -/
def pcs3 (v5 : Vec F S1x1x1x1280 .i32) (v9 : FVec F S1280x128 .f32) (X3 : Vec F S1x10240x128 .f32) :
    ℕ → List (View.Piece (Elt F) S1x10240x128 .f32)
  | 0 => []
  | n + 1 => if h : n < k0_t2_loop.trips then
      (⟨rect2 ⟨n, h⟩, k0_pay6 v5 v9 ⟨n, h⟩ (View.ld X3 (rect2 ⟨n, h⟩))⟩ : View.Piece (Elt F) S1x10240x128 .f32) :: pcs3 v5 v9 X3 n
    else pcs3 v5 v9 X3 n

/-- and into the count block. -/
def pcs4 (v5 : Vec F S1x1x1x1280 .i32) (X4 : Vec F S1x10240x128 .f32) :
    ℕ → List (View.Piece (Elt F) S1x10240x128 .f32)
  | 0 => []
  | n + 1 => if h : n < k0_t2_loop.trips then
      (⟨rect2 ⟨n, h⟩, k0_pay7 v5 ⟨n, h⟩ (View.ld X4 (rect2 ⟨n, h⟩))⟩ : View.Piece (Elt F) S1x10240x128 .f32) :: pcs4 v5 X4 n
    else pcs4 v5 X4 n

theorem mem_pcs3 (v5 : Vec F S1x1x1x1280 .i32) (v9 : FVec F S1280x128 .f32) (X3 : Vec F S1x10240x128 .f32)
    (n : ℕ) (p : View.Piece (Elt F) S1x10240x128 .f32) (hp : p ∈ pcs3 v5 v9 X3 n) :
    ∃ j : Fin k0_t2_loop.trips, j.val < n ∧ p.1 = rect2 j := by
  induction n with
  | zero => exact absurd hp List.not_mem_nil
  | succ n ih =>
    rw [pcs3] at hp
    by_cases h : n < k0_t2_loop.trips
    · rw [dif_pos h] at hp
      rcases List.mem_cons.mp hp with rfl | hp'
      · exact ⟨⟨n, h⟩, Nat.lt_succ_self n, rfl⟩
      · obtain ⟨j, hj, e⟩ := ih hp'; exact ⟨j, Nat.lt_succ_of_lt hj, e⟩
    · rw [dif_neg h] at hp
      obtain ⟨j, hj, e⟩ := ih hp; exact ⟨j, Nat.lt_succ_of_lt hj, e⟩

theorem mem_pcs4 (v5 : Vec F S1x1x1x1280 .i32) (X4 : Vec F S1x10240x128 .f32)
    (n : ℕ) (p : View.Piece (Elt F) S1x10240x128 .f32) (hp : p ∈ pcs4 v5 X4 n) :
    ∃ j : Fin k0_t2_loop.trips, j.val < n ∧ p.1 = rect2 j := by
  induction n with
  | zero => exact absurd hp List.not_mem_nil
  | succ n ih =>
    rw [pcs4] at hp
    by_cases h : n < k0_t2_loop.trips
    · rw [dif_pos h] at hp
      rcases List.mem_cons.mp hp with rfl | hp'
      · exact ⟨⟨n, h⟩, Nat.lt_succ_self n, rfl⟩
      · obtain ⟨j, hj, e⟩ := ih hp'; exact ⟨j, Nat.lt_succ_of_lt hj, e⟩
    · rw [dif_neg h] at hp
      obtain ⟨j, hj, e⟩ := ih hp; exact ⟨j, Nat.lt_succ_of_lt hj, e⟩

/-- Tile `n` of a buffer the earlier trips wrote is tile `n` of what the loop found: they wrote other tiles. -/
theorem ld_writes_tile {sig' : RefSig} (v : View sig' .tc .vmem S1x10240x128 .f32) (G : v.ty.Contents (Elt F))
    (L : List (View.Piece (Elt F) S1x10240x128 .f32)) (n : ℕ) (h : n < k0_t2_loop.trips)
    (hL : ∀ p ∈ L, ∃ j : Fin k0_t2_loop.trips, j.val < n ∧ p.1 = rect2 j) :
    View.ld (v.read (Elt F) (v.writes (Elt F) G L)) (rect2 ⟨n, h⟩) = View.ld (v.read (Elt F) G) (rect2 ⟨n, h⟩) := by
  funext x
  show v.read (Elt F) (v.writes (Elt F) G L) ((rect2 ⟨n, h⟩).emb x) = v.read (Elt F) G ((rect2 ⟨n, h⟩).emb x)
  refine View.read_writes_apply_of_forall_not_mem v G _ L fun p hp => ?_
  obtain ⟨j, hj, e⟩ := hL p hp
  rw [e]
  exact rect2_emb_not_mem ⟨n, h⟩ j (fun hjn => by have := congrArg Fin.val hjn; dsimp only at this; omega) x

/-- The run's piece lists of the second loop ARE these lists, over the rows the loop found in each buffer. -/
theorem pb_eq_pcs (𝒱 : Variants) (c : Dev nD) (bd : Option 𝒱.V) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (v5 : Vec F S1x1x1x1280 .i32) (v9 : FVec F S1280x128 .f32)
    (G5 : BufTy.Contents (Elt F) arg5.view.ty) (G6 : BufTy.Contents (Elt F) arg6.view.ty) (n : ℕ) :
    pb_k0_t2 (F := F) 𝒱 c bd i arg2 harg2 arg3 harg3 arg4 harg4 arg5 harg5 arg6 harg6 v5 v9 G5 G6 n
      = (pcs3 v5 v9 (arg5.view.read (Elt F) G5) n, pcs4 v5 (arg6.view.read (Elt F) G6) n) := by
  induction n with
  | zero => rfl
  | succ n ih =>
    rw [pb_k0_t2.eq_2]
    unfold pb_k0_t2Step
    by_cases h : n < k0_t2_loop.trips
    · rw [dif_pos h, ih, tripL_eq]
      dsimp only
      rw [ld_writes_tile arg5.view G5 _ n h (mem_pcs3 v5 v9 _ n), ld_writes_tile arg6.view G6 _ n h (mem_pcs4 v5 _ n)]
      rw [pcs3, pcs4, dif_pos h, dif_pos h]
      rfl
    · rw [dif_neg h, ih, pcs3, pcs4, dif_neg h, dif_neg h]

/-- An element of tile `k`, `k` among the first `n` trips, ends at trip `k`'s payload — whatever was stored before the loop. -/
theorem canon_pcs3 (v5 : Vec F S1x1x1x1280 .i32) (v9 : FVec F S1280x128 .f32) (X3 : Vec F S1x10240x128 .f32)
    (L' : List (View.Piece (Elt F) S1x10240x128 .f32)) (n : ℕ) (k : Fin k0_t2_loop.trips) (hk : k.val < n)
    (x : (rect2 k).shape.Idx) :
    View.canon (pcs3 v5 v9 X3 n ++ L') ((rect2 k).emb x) = k0_pay6 v5 v9 k (View.ld X3 (rect2 k)) x := by
  induction n with
  | zero => exact absurd hk (Nat.not_lt_zero _)
  | succ n ih =>
    rw [pcs3]
    by_cases h : n < k0_t2_loop.trips
    · rw [dif_pos h, List.cons_append]
      by_cases hkn : k.val = n
      · obtain rfl : k = ⟨n, h⟩ := Fin.ext hkn
        exact View.canon_cons_emb _ _ _ x
      · exact (View.canon_cons_of_not_mem
            (⟨rect2 ⟨n, h⟩, k0_pay6 v5 v9 ⟨n, h⟩ (View.ld X3 (rect2 ⟨n, h⟩))⟩ : View.Piece (Elt F) S1x10240x128 .f32)
            (pcs3 v5 v9 X3 n ++ L') (y := (rect2 k).emb x)
            (rect2_emb_not_mem k ⟨n, h⟩ (fun e => hkn (congrArg Fin.val e).symm) x)).trans (ih (by omega))
    · rw [dif_neg h]
      exact ih (by have := k.isLt; omega)

theorem canon_pcs4 (v5 : Vec F S1x1x1x1280 .i32) (X4 : Vec F S1x10240x128 .f32)
    (L' : List (View.Piece (Elt F) S1x10240x128 .f32)) (n : ℕ) (k : Fin k0_t2_loop.trips) (hk : k.val < n)
    (x : (rect2 k).shape.Idx) :
    View.canon (pcs4 v5 X4 n ++ L') ((rect2 k).emb x) = k0_pay7 v5 k (View.ld X4 (rect2 k)) x := by
  induction n with
  | zero => exact absurd hk (Nat.not_lt_zero _)
  | succ n ih =>
    rw [pcs4]
    by_cases h : n < k0_t2_loop.trips
    · rw [dif_pos h, List.cons_append]
      by_cases hkn : k.val = n
      · obtain rfl : k = ⟨n, h⟩ := Fin.ext hkn
        exact View.canon_cons_emb _ _ _ x
      · exact (View.canon_cons_of_not_mem
            (⟨rect2 ⟨n, h⟩, k0_pay7 v5 ⟨n, h⟩ (View.ld X4 (rect2 ⟨n, h⟩))⟩ : View.Piece (Elt F) S1x10240x128 .f32)
            (pcs4 v5 X4 n ++ L') (y := (rect2 k).emb x)
            (rect2_emb_not_mem k ⟨n, h⟩ (fun e => hkn (congrArg Fin.val e).symm) x)).trans (ih (by omega))
    · rw [dif_neg h]
      exact ih (by have := k.isLt; omega)

end Cert.KernelIdeal.Trips

end
-- ==== Proof.OutPieces.lean ====
/-
  The two output blocks after one grid point, element by element of a tile.

  In the accumulating case the blocks hold `xo3`, `xo4` on entry: an element of tile `k` ends at trip `k`'s payload of
  that tile of `xo3` (resp. `xo4`). In the resetting case both blocks are first filled with the zero block, so the
  same payloads are taken over tiles of the zero block.
-/
import proofs.«410679_j74045236183291_3_alg».proof.Proof.Pieces

set_option maxRecDepth 16384

noncomputable section

open Idealize.ShloMosaic Idealize.ShloMosaic.TcCoe Idealize.SL.Sem Idealize.ShloMosaic.Tactic

namespace Cert.KernelIdeal.Trips

open Cert.KernelIdeal Cert.KernelIdeal.Gen

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem out0_B_3_piece (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : ¬cond0_0 i)
    (x0 x1 : Vec F S1x1x1x1280 .i32) (x2 : Vec F S10240x128 .f32) (xo3 xo4 : Vec F S1x10240x128 .f32)
    (k : Fin k0_t2_loop.trips) (x : (rect2 k).shape.Idx) :
    out0_B_3 c i arg2 harg2 arg3 harg3 arg4 harg4 arg5 harg5 arg6 harg6 hc0 x0 x1 x2 xo3 xo4 ((rect2 k).emb x)
      = k0_pay6 x1 (gath x0 x2 k0_t1_loop.trips) k (View.ld xo3 (rect2 k)) x := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [pb_eq_pcs, st_eq_gath]
  dsimp only
  simp only [View.readAt_eq_ld, harg2.read_unread, harg3.read_unread, harg4.read_unread, harg5.read_unread,
    View.ld_unit_zero (S := S1x1x1x1280) hz4]
  exact (congrArg (fun L => View.canon L ((rect2 k).emb x)) (List.append_nil _).symm).trans
    (canon_pcs3 x1 (gath x0 x2 k0_t1_loop.trips) xo3 [] k0_t2_loop.trips k k.isLt x)

theorem out0_B_4_piece (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : ¬cond0_0 i)
    (x0 x1 : Vec F S1x1x1x1280 .i32) (x2 : Vec F S10240x128 .f32) (xo3 xo4 : Vec F S1x10240x128 .f32)
    (k : Fin k0_t2_loop.trips) (x : (rect2 k).shape.Idx) :
    out0_B_4 c i arg2 harg2 arg3 harg3 arg4 harg4 arg5 harg5 arg6 harg6 hc0 x0 x1 x2 xo3 xo4 ((rect2 k).emb x)
      = k0_pay7 x1 k (View.ld xo4 (rect2 k)) x := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [pb_eq_pcs]
  dsimp only
  simp only [View.readAt_eq_ld, harg3.read_unread, harg6.read_unread, View.ld_unit_zero (S := S1x1x1x1280) hz4]
  exact (congrArg (fun L => View.canon L ((rect2 k).emb x)) (List.append_nil _).symm).trans
    (canon_pcs4 x1 xo4 [] k0_t2_loop.trips k k.isLt x)

/-- A buffer filled by one whole-block store reads as that store's payload. -/
theorem read_fill {sig' : RefSig} (v : View sig' .tc .vmem S1x10240x128 .f32) (w : Vec F S1x10240x128 .f32) :
    v.read (Elt F) (v.writes (Elt F) v.junk
      [(⟨Rect.unit (s := S1x10240x128) ![0, 0, 0] ![1, 10240, 128] inb_S1x10240x128_S1x10240x128_0_0_0, w⟩ : View.Piece (Elt F) S1x10240x128 .f32)]) = w := by
  rw [View.read_writes_eq_canon _ _ _ (fun y => ⟨_, List.mem_singleton_self _, View.mem_set_unit_zero hz3 inb_S1x10240x128_S1x10240x128_0_0_0 y⟩),
    View.canon_unit_zero hz3]

theorem out0_A_3_piece (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : cond0_0 i)
    (x0 x1 : Vec F S1x1x1x1280 .i32) (x2 : Vec F S10240x128 .f32)
    (k : Fin k0_t2_loop.trips) (x : (rect2 k).shape.Idx) :
    out0_A_3 c i arg2 harg2 arg3 harg3 arg4 harg4 arg5 harg5 arg6 harg6 hc0 x0 x1 x2 ((rect2 k).emb x)
      = k0_pay6 x1 (gath x0 x2 k0_t1_loop.trips) k (View.ld (k0_pay1 (F := F)) (rect2 k)) x := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [pb_eq_pcs, st_eq_gath]
  dsimp only
  simp only [View.readAt_eq_ld, harg2.read_unread, harg3.read_unread, harg4.read_unread,
    View.ld_unit_zero (S := S1x1x1x1280) hz4]
  rw [read_fill arg5.view (k0_pay1 (F := F))]
  exact canon_pcs3 x1 (gath x0 x2 k0_t1_loop.trips) k0_pay1 [(⟨Rect.unit ![0, 0, 0] S1x10240x128.size inb_S1x10240x128_S1x10240x128_0_0_0, k0_pay1⟩ : View.Piece (Elt F) S1x10240x128 .f32)] k0_t2_loop.trips k k.isLt x

theorem out0_A_4_piece (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : cond0_0 i)
    (x0 x1 : Vec F S1x1x1x1280 .i32) (x2 : Vec F S10240x128 .f32)
    (k : Fin k0_t2_loop.trips) (x : (rect2 k).shape.Idx) :
    out0_A_4 c i arg2 harg2 arg3 harg3 arg4 harg4 arg5 harg5 arg6 harg6 hc0 x0 x1 x2 ((rect2 k).emb x)
      = k0_pay7 x1 k (View.ld (k0_pay2 (F := F)) (rect2 k)) x := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [pb_eq_pcs]
  dsimp only
  simp only [View.readAt_eq_ld, harg3.read_unread, View.ld_unit_zero (S := S1x1x1x1280) hz4]
  rw [read_fill arg6.view (k0_pay2 (F := F))]
  exact canon_pcs4 x1 k0_pay2 [(⟨Rect.unit ![0, 0, 0] S1x10240x128.size inb_S1x10240x128_S1x10240x128_0_0_0, k0_pay2⟩ : View.Piece (Elt F) S1x10240x128 .f32)] k0_t2_loop.trips k k.isLt x

end Cert.KernelIdeal.Trips

end
-- ==== Proof.Spec.lean ====
/-
  The mathematics both programs compute, over literal shapes, with no program in sight.

  A graph has 10000 nodes with a feature row each (`x : [10000, 128]`) and 640000 edges; edge `e` has a source id
  `ei[0, e]` and a destination id `ei[1, e]`, both 32-bit words read signed. The source row an edge reads is its
  source id clamped into `[0, 9999]` (`srcRow`); the edge lands on node `n` when its destination id IS `n`
  (`hits`: an id outside `[0, 9999]` lands nowhere). `nsum n d` is the sum of the source rows of the edges landing on
  `n`, `cnt n` their number, and the aggregated mean is `nsum / max 1 cnt`.

  The kernel computes the same sums as one-hot products, tile by tile: `oh p` is the indicator of `p` as an extended
  real, `gsel` a row selected out of a padded table by an indicator sum, `psum` / `pcnt` the per-core partial sums
  over that core's 250 chunks of 1280 edges.
-/
import Idealize.ShloMosaic.PureOps.Ideal
import Idealize.ShloMosaic.Lib.ValueIdx

noncomputable section

namespace Cert.Sage

open Idealize.ShloMosaic Idealize.ShloMosaic.ValueIdx

/-- The indicator of a proposition, as an extended real. -/
def oh (p : Prop) [Decidable p] : EReal := if p then 1 else 0

theorem oh_true {p : Prop} [Decidable p] (h : p) : oh p = 1 := if_pos h
theorem oh_false {p : Prop} [Decidable p] (h : ¬p) : oh p = 0 := if_neg h

/-- The edge list, the feature table, the padded table, the chunked id arrays, the per-core partial arrays. -/
abbrev SEI : Shape := ⟨2, ![2, 640000]⟩
abbrev SX : Shape := ⟨2, ![10000, 128]⟩
abbrev SXP : Shape := ⟨2, ![10240, 128]⟩
abbrev SCH : Shape := ⟨4, ![2, 250, 1, 1280]⟩
abbrev SPART : Shape := ⟨3, ![2, 10240, 128]⟩

/-- Edge `e`'s source id and destination id, as stored. -/
def rowOf (ei : IVec SEI 32) (e : Fin 640000) : BitVec 32 := ei (ix2 0 e)
def colOf (ei : IVec SEI 32) (e : Fin 640000) : BitVec 32 := ei (ix2 1 e)

/-- The source row edge `e` reads: its source id, read signed, clamped into `[0, 9999]`. -/
def srcRow (ei : IVec SEI 32) (e : Fin 640000) : Fin 10000 :=
  ⟨min (rowOf ei e).toInt.toNat 9999, by omega⟩

/-- Edge `e` lands on node `n`: its destination id, read signed, is `n`. -/
def hits (ei : IVec SEI 32) (e : Fin 640000) (n : Fin 10000) : Prop := (colOf ei e).toInt = (n.val : Int)

instance (ei : IVec SEI 32) (e : Fin 640000) (n : Fin 10000) : Decidable (hits ei e n) := by unfold hits; infer_instance

/-- The sum of the source rows of the edges landing on node `n`, feature `d`. -/
def nsum (x : FVec Ideal SX .f32) (ei : IVec SEI 32) (n : Fin 10000) (d : Fin 128) : EReal :=
  ∑ e : Fin 640000, if hits ei e n then x (ix2 (srcRow ei e) d) else 0

/-- The number of edges landing on node `n`. -/
def cnt (ei : IVec SEI 32) (n : Fin 10000) : EReal :=
  ∑ e : Fin 640000, if hits ei e n then 1 else 0

/-- The floor of the count in the mean's quotient: the float the word `0x3F800000` denotes (one), kept as that word:
    both programs carry it, so it is never evaluated. -/
def one32 : EReal := Ideal.ofBits .f32 0x3F800000#32

/-- The aggregated mean: the sum over the count, the count raised to at least `one32`. -/
def mean (x : FVec Ideal SX .f32) (ei : IVec SEI 32) : FVec Ideal SX .f32 :=
  fun j => Ideal.div (nsum x ei (j 0) (j 1)) (max one32 (cnt ei (j 0)))

/-! ## The kernel's way: indicator sums over tiles -/

/-- Row `r` (a 32-bit word) of a padded table, feature `d`, selected by an indicator sum over all 10240 rows. -/
def gsel (X : FVec Ideal SXP .f32) (r : BitVec 32) (d : Fin 128) : EReal :=
  ∑ n' : Fin 10240, oh (BitVec.ofNat 32 n'.val = r) * X (ix2 n' d)

/-- What one chunk of 1280 edges (source ids `rb`, destination ids `cb`, as the chunk's lane index gives them) adds
    to node row `n`, feature `d`, of a core's partial sum. -/
def dsum (rb cb : Fin 1280 → BitVec 32) (X : FVec Ideal SXP .f32) (n : Fin 10240) (d : Fin 128) : EReal :=
  ∑ e : Fin 1280, oh (BitVec.ofNat 32 n.val = cb e) * gsel X (rb e) d

/-- and to its partial count. -/
def dcnt (cb : Fin 1280 → BitVec 32) (n : Fin 10240) : EReal :=
  ∑ e : Fin 1280, oh (BitVec.ofNat 32 n.val = cb e)

/-- Core `cc`'s partial sum and count over its 250 chunks, from the chunked id arrays `R` (sources) and `C`
    (destinations) and the padded table. -/
def psum (R C : IVec SCH 32) (X : FVec Ideal SXP .f32) (cc : Fin 2) (n : Fin 10240) (d : Fin 128) : EReal :=
  ∑ i : Fin 250, dsum (fun e => R (ix4 cc i 0 e)) (fun e => C (ix4 cc i 0 e)) X n d

def pcnt (C : IVec SCH 32) (cc : Fin 2) (n : Fin 10240) : EReal :=
  ∑ i : Fin 250, dcnt (fun e => C (ix4 cc i 0 e)) n

/-! ## The host's preparation of the kernel's operands -/

/-- The flat edge number of chunk coordinates: core `cc`, chunk `i`, lane `e`. -/
def flatE (cc : Fin 2) (i : Fin 250) (e : Fin 1280) : Fin 640000 :=
  ⟨(cc.val * 250 + i.val) * 1280 + e.val, by have := cc.isLt; have := i.isLt; have := e.isLt; omega⟩

/-- A source id clamped into `[0, 9999]` as a word: the signed minimum with 9999 of the signed maximum with 0. -/
def clipW (r : BitVec 32) : BitVec 32 :=
  if (9999#32).slt (if (0#32).slt r then r else 0#32) then 9999#32 else (if (0#32).slt r then r else 0#32)

/-- A destination id kept when it is in `[0, 10000)` (signed), else sent to the padding node 10239. -/
def padW (c : BitVec 32) : BitVec 32 :=
  if (0#32).sle c ∧ c.slt 10000#32 then c else 10239#32

/-- The chunked, clamped source ids; the chunked, guarded destination ids; the table padded with 240 zero rows. -/
def chunkR (ei : IVec SEI 32) : IVec SCH 32 := fun j => clipW (rowOf ei (flatE (j 0) (j 1) (j 3)))
def chunkC (ei : IVec SEI 32) : IVec SCH 32 := fun j => padW (colOf ei (flatE (j 0) (j 1) (j 3)))
def padX (x : FVec Ideal SX .f32) : FVec Ideal SXP .f32 :=
  fun j => if h : (j 0).val < 10000 then x (ix2 ⟨(j 0).val, h⟩ (j 1)) else 0

/-- A node id as a row of the padded arrays. -/
def up (a : Fin 10000) : Fin 10240 := ⟨a.val, by have := a.isLt; omega⟩

/-- The mean as the kernel's host code forms it from the two cores' partial arrays (rows below 10000 only). -/
def kmean (P Q : FVec Ideal SPART .f32) : FVec Ideal SX .f32 :=
  fun j => Ideal.div (P (ix3 0 (up (j 0)) (j 1)) + P (ix3 1 (up (j 0)) (j 1)))
    (max one32 (Q (ix3 0 (up (j 0)) (j 1)) + Q (ix3 1 (up (j 0)) (j 1))))

end Cert.Sage

end
-- ==== Proof.Payload4.lean ====
/-
  Four of the kernel body's payloads read at an index, at the ideal values.

  Three are zero splats (the two partial arrays' initial blocks and the loop's initial accumulator). The fourth is a
  trip of the gather loop: with `k` the trip, `v3` the chunk's 1280 source ids and `v15` the trip's 1280 table rows, it
  forms the one-hot matrix `M[n, e] = [word (1280 k + n) = v3[e]]` and adds `Mᵀ · v15` to the accumulator, so that at
  `(e, d)` the result is `acc[e, d] + Σ_n [word (1280 k + n) = v3[e]] · v15[n, d]`.
-/
import proofs.«410679_j74045236183291_3_alg».proof.Proof.Gen.KernelIdeal.Skeleton
import proofs.«410679_j74045236183291_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload4

open Idealize.ShloMosaic Idealize.ShloMosaic.ValueIdx Cert.KernelIdeal Cert.KernelIdeal.Gen Cert.Sage

/-! ## The zero splats -/

/-- The zero splat, cast to a block with a leading unit axis, is zero everywhere. -/
theorem pay1_apply (y : S1x10240x128.Idx) : k0_pay1 (F := Ideal) y = 0 := by
  unfold k0_pay1
  exact Ideal.ofBits_zero_f32

/-- The same, for the second partial array's initial block. -/
theorem pay2_apply (y : S1x10240x128.Idx) : k0_pay2 (F := Ideal) y = 0 := by
  unfold k0_pay2
  exact Ideal.ofBits_zero_f32

/-- The loop's initial accumulator is the zero splat. -/
theorem pay3_apply (y : S1280x128.Idx) : k0_pay3 (F := Ideal) y = 0 := by
  unfold k0_pay3
  exact Ideal.ofBits_zero_f32

/-! ## The one-hot factor -/

/-- The word `n + (0 + k · 1) · 1280` is the word of `1280 k + n` (words form a ring: no bound is needed). -/
theorem word_eq (k n : Nat) :
    IntOp.addi (BitVec.ofNat 32 n) (Scalar.muli (Scf.iv 0#32 1#32 k) 1280#32) = BitVec.ofNat 32 (1280 * k + n) := by
  show BitVec.ofNat 32 n + (0#32 + BitVec.ofNat 32 k * 1#32) * 1280#32 = BitVec.ofNat 32 (1280 * k + n)
  apply BitVec.eq_of_toNat_eq
  simp only [BitVec.toNat_add, BitVec.toNat_mul, BitVec.toNat_ofNat]
  omega

/-- The bit of a word equality, widened to a word and converted, is the indicator of the equality. -/
theorem bit_f32 (x y : BitVec 32) :
    (FloatOps.sitofp (F := Ideal) .f32 ((IntOp.cmpi .eq x y).setWidth 32) : EReal) = oh (x = y) := by
  show ((((IntOp.cmpi .eq x y).setWidth 32).toInt : ℝ) : EReal) = oh (x = y)
  by_cases h : x = y
  · have hb : IntOp.cmpi .eq x y = 1#1 := by simp [IntOp.cmpi, h]
    rw [oh_true h, hb]
    norm_num
  · have hb : IntOp.cmpi .eq x y = 0#1 := by
      show BitVec.ofBool (x == y) = 0#1
      rw [beq_false_of_ne h]; rfl
    rw [oh_false h, hb]
    norm_num

/-- A column `[1280, 1]` broadcast over `[1280, 1280]` reads, at `(n, e)`, its entry `n`. -/
theorem bcast_col {α : Type} (v : S1280x1.Idx → α) (n e : Fin 1280) :
    broadcastTo S1280x1280 v broadcasts_S1280x1_S1280x1280 (ix2 n e) = v (ix2 n (0 : Fin 1)) :=
  broadcastTo_apply v _ (ix2 n e) (ix2 n (0 : Fin 1)) (fun a => match a with
    | ⟨0, _⟩ => by show n.val = if (1280 : Nat) = 1 then 0 else n.val; rw [if_neg (by decide)]
    | ⟨1, _⟩ => by show 0 = if (1 : Nat) = 1 then 0 else e.val; rw [if_pos rfl])

/-- A row `[1, 1280]` broadcast over `[1280, 1280]` reads, at `(n, e)`, its entry `e`. -/
theorem bcast_row {α : Type} (v : S1x1280.Idx → α) (n e : Fin 1280) :
    broadcastTo S1280x1280 v broadcasts_S1x1280_S1280x1280 (ix2 n e) = v (ix2 (0 : Fin 1) e) :=
  broadcastTo_1b_ab_apply v _ n e

/-- A `[1, 1, 1, 1280]` block cast to `[1, 1280]` reads, at `(0, e)`, the block at `(0, 0, 0, e)`. -/
theorem cast_row {α : Type} (v : S1x1x1x1280.Idx → α) (e : Fin 1280) :
    shapeCast S1x1280 v shapeCasts_S1x1x1x1280_S1x1280 (ix2 (0 : Fin 1) e) = v (ix4 (0 : Fin 1) (0 : Fin 1) (0 : Fin 1) e) :=
  shapeCast_apply v _ _ _ (by
    rw [Shape.rowMajor_val_four, Shape.rowMajor_val_two]
    show ((0 * 1 + 0) * 1 + 0) * 1280 + e.val = 0 * 1280 + e.val
    rfl)

/-- The one-hot factor of trip `k`: entry `(n, e)` compares the word of row `n + 1280 k` with lane `e`'s id, and the
    bit is widened and converted. -/
def onehot (v3 : Vec Ideal S1x1x1x1280 .i32) (k : Nat) : FVec Ideal S1280x1280 .bf16 :=
  truncf .bf16 (sitofp .f32 (extui 32 (cmpi .eq
    (broadcastTo S1280x1280 (addi (iota .tc S1280x1 32 [0] iota_S1280x1_d0_w32) (broadcast S1280x1 (Scalar.muli (Scf.iv 0#32 1#32 k) 1280#32))) broadcasts_S1280x1_S1280x1280)
    (broadcastTo S1280x1280 (shapeCast S1x1280 v3 shapeCasts_S1x1x1x1280_S1x1280) broadcasts_S1x1280_S1280x1280)) natLt_1_32)) bitsLt_bf16_f32

/-- Read at `(n, e)` it is `1` where the word of `1280 k + n` is lane `e`'s id, else `0`. -/
theorem onehot_apply (v3 : Vec Ideal S1x1x1x1280 .i32) (k : Nat) (n e : Fin 1280) :
    onehot v3 k (ix2 n e) = oh (BitVec.ofNat 32 (1280 * k + n.val) = v3 (ix4 0 0 0 e)) := by
  unfold onehot
  have e1 := bcast_col (addi (iota .tc S1280x1 32 [0] iota_S1280x1_d0_w32) (broadcast S1280x1 (Scalar.muli (Scf.iv 0#32 1#32 k) 1280#32))) n e
  have e2 := bcast_row (shapeCast S1x1280 v3 shapeCasts_S1x1x1x1280_S1x1280) n e
  have e3 := cast_row v3 e
  have e4 : addi (iota .tc S1280x1 32 [0] iota_S1280x1_d0_w32) (broadcast S1280x1 (Scalar.muli (Scf.iv 0#32 1#32 k) 1280#32)) (ix2 n (0 : Fin 1)) = BitVec.ofNat 32 (1280 * k + n.val) :=
    (congrArg (fun w => IntOp.addi w (Scalar.muli (Scf.iv 0#32 1#32 k) 1280#32)) (iota_single_apply .tc S1280x1 32 0 iota_S1280x1_d0_w32 (ix2 n (0 : Fin 1)))).trans (word_eq k n.val)
  show FloatOps.sitofp (F := Ideal) .f32 ((IntOp.cmpi .eq (broadcastTo S1280x1280 _ _ (ix2 n e)) (broadcastTo S1280x1280 _ _ (ix2 n e))).setWidth 32) = _
  rw [e1, e2, e3, e4]
  exact bit_f32 _ _

/-! ## The product: axis 0 of the one-hot factor against axis 0 of the loaded rows -/

/-- The left operand's axis 0 is the contracted one: it reads the contraction coordinate. -/
theorem lhs4_0 (i : S1280x128.Idx) (q : dot_S1280x1280_S1280x128_S1280x128_0_0_1_1_n_n.contr.Idx) :
    (dot_S1280x1280_S1280x128_S1280x128_0_0_1_1_n_n.lhsIdx i q 0).val = (q ⟨0, by decide⟩).val :=
  dot_S1280x1280_S1280x128_S1280x128_0_0_1_1_n_n.lhsIdx_val_of_single rfl i q
/-- The left operand's axis 1 is the result's axis 0. -/
theorem lhs4_1 (i : S1280x128.Idx) (q : dot_S1280x1280_S1280x128_S1280x128_0_0_1_1_n_n.contr.Idx) :
    (dot_S1280x1280_S1280x128_S1280x128_0_0_1_1_n_n.lhsIdx i q 1).val = (i 0).val := by
  unfold DotDims.lhsIdx
  rw [dif_neg (show ¬(1 : Fin S1280x1280.rank) ∈ dot_S1280x1280_S1280x128_S1280x128_0_0_1_1_n_n.lhsBatch by decide), dif_pos (show (1 : Fin S1280x1280.rank) ∈ dot_S1280x1280_S1280x128_S1280x128_0_0_1_1_n_n.lhsNonContracting by decide)]
  rfl
/-- The right operand's axis 0 is the contracted one. -/
theorem rhs4_0 (i : S1280x128.Idx) (q : dot_S1280x1280_S1280x128_S1280x128_0_0_1_1_n_n.contr.Idx) :
    (dot_S1280x1280_S1280x128_S1280x128_0_0_1_1_n_n.rhsIdx i q 0).val = (q ⟨0, by decide⟩).val :=
  dot_S1280x1280_S1280x128_S1280x128_0_0_1_1_n_n.rhsIdx_val_of_single rfl i q
/-- The right operand's axis 1 is the result's axis 1. -/
theorem rhs4_1 (i : S1280x128.Idx) (q : dot_S1280x1280_S1280x128_S1280x128_0_0_1_1_n_n.contr.Idx) :
    (dot_S1280x1280_S1280x128_S1280x128_0_0_1_1_n_n.rhsIdx i q 1).val = (i 1).val := by
  unfold DotDims.rhsIdx
  rw [dif_neg (show ¬(1 : Fin S1280x128.rank) ∈ dot_S1280x1280_S1280x128_S1280x128_0_0_1_1_n_n.rhsBatch by decide), dif_pos (show (1 : Fin S1280x128.rank) ∈ dot_S1280x1280_S1280x128_S1280x128_0_0_1_1_n_n.rhsNonContracting by decide)]
  rfl

/-- The product into the zero accumulator, read at `(e, d)`: the sum over the rows `n` of the two factors' entries. -/
theorem prod_apply (L : FVec Ideal S1280x1280 .bf16) (R : FVec Ideal S1280x128 .bf16) (e : Fin 1280) (d : Fin 128) :
    matmul dot_S1280x1280_S1280x128_S1280x128_0_0_1_1_n_n none L R (constant S1280x128 .f32 0x00000000#32) (ix2 e d)
      = ∑ n : Fin 1280, L (ix2 n e) * R (ix2 n d) := by
  simp only [matmul]
  rw [Ideal.matmul_constant_zero_apply, ← Equiv.sum_comp (contrEquiv1 dot_S1280x1280_S1280x128_S1280x128_0_0_1_1_n_n 1280 rfl rfl).symm]
  refine Finset.sum_congr rfl fun n _ => ?_
  have hn := contrEquiv1_symm_val dot_S1280x1280_S1280x128_S1280x128_0_0_1_1_n_n 1280 rfl rfl n
  have el : dot_S1280x1280_S1280x128_S1280x128_0_0_1_1_n_n.lhsIdx (ix2 e d) ((contrEquiv1 dot_S1280x1280_S1280x128_S1280x128_0_0_1_1_n_n 1280 rfl rfl).symm n) = ix2 n e := funext fun a => Fin.ext (by
    match a with
    | ⟨0, _⟩ => exact (lhs4_0 _ _).trans hn
    | ⟨1, _⟩ => exact lhs4_1 _ _)
  have er : dot_S1280x1280_S1280x128_S1280x128_0_0_1_1_n_n.rhsIdx (ix2 e d) ((contrEquiv1 dot_S1280x1280_S1280x128_S1280x128_0_0_1_1_n_n 1280 rfl rfl).symm n) = ix2 n d := funext fun a => Fin.ext (by
    match a with
    | ⟨0, _⟩ => exact (rhs4_0 _ _).trans hn
    | ⟨1, _⟩ => exact rhs4_1 _ _)
  rw [el, er]

/-! ## The payload -/

/-- The payload is the accumulator plus the product of the one-hot factor with the loaded rows. -/
theorem pay4_eq (v3 : Vec Ideal S1x1x1x1280 .i32) (k : Fin k0_t1_loop.trips) (acc : FVec Ideal S1280x128 .f32) (v15 : Vec Ideal S1280x128 .f32) :
    k0_pay4 (F := Ideal) v3 k acc v15
      = addf acc (matmul dot_S1280x1280_S1280x128_S1280x128_0_0_1_1_n_n none (onehot v3 k.val)
          (truncf .bf16 (shapeCast S1280x128 v15 shapeCasts_S1280x128_S1280x128) bitsLt_bf16_f32) (constant S1280x128 .f32 0x00000000#32)) := rfl

/-- Read at `(e, d)`: the accumulator there plus, over the trip's rows `n`, the indicator that the word of row
    `1280 k + n` is lane `e`'s source id times the loaded row's feature `d`. -/
theorem pay4_apply (v3 : Vec Ideal S1x1x1x1280 .i32) (k : Fin k0_t1_loop.trips) (acc : FVec Ideal S1280x128 .f32) (v15 : Vec Ideal S1280x128 .f32) (e : Fin 1280) (d : Fin 128) :
    k0_pay4 (F := Ideal) v3 k acc v15 (ix2 e d)
      = acc (ix2 e d) + ∑ n : Fin 1280, oh (BitVec.ofNat 32 (1280 * k.val + n.val) = v3 (ix4 0 0 0 e)) * v15 (ix2 n d) := by
  rw [pay4_eq, addf_apply, prod_apply]
  refine congrArg (fun t => acc (ix2 e d) + t) (Finset.sum_congr rfl fun n _ => ?_)
  rw [onehot_apply]
  exact congrArg (fun t => _ * t) (congrFun (shapeCast_self v15 shapeCasts_S1280x128_S1280x128) (ix2 n d))

end Cert.KernelIdeal.Payload4

end
-- ==== Proof.Payload67.lean ====
import proofs.«410679_j74045236183291_3_alg».proof.Proof.Gen.KernelIdeal.Skeleton
import proofs.«410679_j74045236183291_3_alg».proof.Proof.Spec
import Idealize.ShloMosaic.Lib.ValueIdx
import Idealize.ShloMosaic.Lib.ValueLayout
import Idealize.ShloMosaic.Lib.Pipeline.Value
import Idealize.ShloMosaic.PureOps.Ideal.Laws

/-
  The two accumulating payloads of the second loop, read at an index, at the ideal values.

  Trip `k` of the loop handles node rows `1280 k … 1280 k + 1279`. The one-hot matrix of the trip has, at `(n, e)`,
  the one-bit word of "row number `1280 k + n` equals lane `e`'s destination id": the row number is a column iota plus
  the splat of `1280 k` (no 32-bit wrap: `k < 8`), the ids are the chunk's `[1, 1, 1, 1280]` block viewed as a row,
  and both are broadcast to `[1280, 1280]`. Widened to a word and converted, the bit is the indicator `1` or `0` as
  an extended real.

  The sum payload multiplies the one-hot matrix with the gathered rows `[1280(e), 128(d)]` into a zero accumulator,
  `Σ_e onehot[n, e] · rows[e, d]`, and adds it to the block loaded from the partial-sum array. The count payload sums
  the one-hot matrix along its lane axis, `Σ_e onehot[n, e]`, spreads the column over the 128 features and adds it to
  the block loaded from the partial-count array. Format changes are the identity at the ideal values.
-/

noncomputable section

namespace Cert.KernelIdeal.Payload67

open Idealize.ShloMosaic Idealize.ShloMosaic.ValueIdx Cert.KernelIdeal Cert.KernelIdeal.Gen Cert.Sage

/-- The loop runs fewer than eight trips. -/
theorem trips_le (k : Fin k0_t2_loop.trips) : k.val < 8 := lt_of_lt_of_le k.isLt k0_t2_abs.2.1

/-- The row number as a word: the iota's `n` plus `k · 1280` (the induction variable `0 + k · 1`), with nothing wrapping. -/
theorem word_eq (k n : Nat) (hk : k < 8) (hn : n < 1280) :
    IntOp.addi (BitVec.ofNat 32 n) (Scalar.muli (Scf.iv 0#32 1#32 k) 1280#32) = BitVec.ofNat 32 (1280 * k + n) := by
  apply BitVec.eq_of_toNat_eq
  simp only [IntOp.addi, Scalar.muli, IntOp.muli, Scf.iv, BitVec.toNat_add, BitVec.toNat_mul, BitVec.toNat_ofNat]
  omega

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1, a]` array cast to `[1, a]` reads, at `(0, i)`, the operand at `(0, 0, 0, i)`. -/
theorem shapeCast_111a_1a_apply {α : Type} {a : ℕ} (x : (⟨4, ![1, 1, 1, a]⟩ : Shape).Idx → α)
    (h : (⟨4, ![1, 1, 1, a]⟩ : Shape).ShapeCasts ⟨2, ![1, a]⟩) (i : Fin a) :
    shapeCast ⟨2, ![1, a]⟩ x h (ix2 (0 : Fin 1) i) = x (ix4 (0 : Fin 1) (0 : Fin 1) (0 : Fin 1) i) :=
  shapeCast_apply x h _ _ (by
    rw [Shape.rowMajor_val_four, Shape.rowMajor_val_two]
    show ((0 * 1 + 0) * 1 + 0) * a + i.val = 0 * a + i.val
    simp only [Nat.zero_mul, Nat.zero_add, Nat.add_zero, Nat.mul_one])

/-- The one-hot matrix's bit at `(n, e)`: the row number `1280 k + n` compared with lane `e`'s id. -/
theorem pay5_apply (v5 : Vec Ideal S1x1x1x1280 .i32) (k : Fin k0_t2_loop.trips) (n e : Fin 1280) :
    k0_pay5 (F := Ideal) v5 k (ix2 n e)
      = IntOp.cmpi .eq (BitVec.ofNat 32 (1280 * k.val + n.val)) (v5 (ix4 0 0 0 e)) := by
  unfold k0_pay5
  show IntOp.cmpi .eq
      (broadcastTo S1280x1280 (addi (iota .tc S1280x1 32 [0] iota_S1280x1_d0_w32)
        (broadcast S1280x1 (Scalar.muli (Scf.iv 0#32 1#32 k) 1280#32))) broadcasts_S1280x1_S1280x1280 (ix2 n e))
      (broadcastTo S1280x1280 (shapeCast S1x1280 v5 shapeCasts_S1x1x1x1280_S1x1280) broadcasts_S1x1280_S1280x1280 (ix2 n e)) = _
  rw [broadcastTo_a1_ab_apply, broadcastTo_1b_ab_apply, shapeCast_111a_1a_apply]
  show IntOp.cmpi .eq (IntOp.addi (iota .tc S1280x1 32 [0] iota_S1280x1_d0_w32 (ix2 n (0 : Fin 1)))
      (Scalar.muli (Scf.iv 0#32 1#32 k) 1280#32)) _ = _
  rw [iota_single_apply]
  show IntOp.cmpi .eq (IntOp.addi (BitVec.ofNat 32 n.val) (Scalar.muli (Scf.iv 0#32 1#32 k) 1280#32)) _ = _
  rw [word_eq k.val n.val (trips_le k) n.isLt]

/-- A one-bit equality test of two words, widened to a word and read as a signed integer, is the indicator. -/
theorem bit_val (a b : BitVec 32) :
    ((((IntOp.cmpi .eq a b).setWidth 32).toInt : ℝ) : EReal) = oh (a = b) := by
  have hb : ∀ c : BitVec 1, (c.setWidth 32).toInt = (c.toNat : ℤ) := by decide
  by_cases h : a = b
  · have h1 : IntOp.cmpi .eq a b = 1#1 := by simp [IntOp.cmpi, h]
    rw [oh_true h, h1, hb]; simp
  · have h0 : IntOp.cmpi .eq a b = 0#1 := by simp [IntOp.cmpi, beq_eq_false_iff_ne.mpr h]
    rw [oh_false h, h0, hb]; simp

/-- The one-hot matrix as extended reals: entry `(n, e)` is the indicator that lane `e`'s id is row `1280 k + n`. -/
theorem onehot_apply (v5 : Vec Ideal S1x1x1x1280 .i32) (k : Fin k0_t2_loop.trips) (n e : Fin 1280) :
    (sitofp .f32 (extui 32 (k0_pay5 (F := Ideal) v5 k) natLt_1_32) : FVec Ideal S1280x1280 .f32) (ix2 n e)
      = oh (BitVec.ofNat 32 (1280 * k.val + n.val) = v5 (ix4 0 0 0 e)) := by
  show ((((k0_pay5 (F := Ideal) v5 k (ix2 n e)).setWidth 32).toInt : ℝ) : EReal) = _
  rw [pay5_apply]
  exact bit_val _ _

/-! The operand indices of the contraction `[1280(n) × 1280(e)] · [1280(e) × 128(d)]`, coordinate by coordinate. -/

/-- The left operand's row is the output's row. -/
theorem lhs_dot_0 (i : S1280x128.Idx) (q : dot_S1280x1280_S1280x128_S1280x128_1_0_0_1_n_n.contr.Idx) :
    (dot_S1280x1280_S1280x128_S1280x128_1_0_0_1_n_n.lhsIdx i q 0).val = (i 0).val := by
  unfold DotDims.lhsIdx
  rw [dif_neg (show ¬(0 : Fin S1280x1280.rank) ∈ dot_S1280x1280_S1280x128_S1280x128_1_0_0_1_n_n.lhsBatch by decide), dif_pos (show (0 : Fin S1280x1280.rank) ∈ dot_S1280x1280_S1280x128_S1280x128_1_0_0_1_n_n.lhsNonContracting by decide)]
  rfl
/-- The left operand's column is the contraction coordinate. -/
theorem lhs_dot_1 (i : S1280x128.Idx) (q : dot_S1280x1280_S1280x128_S1280x128_1_0_0_1_n_n.contr.Idx) :
    (dot_S1280x1280_S1280x128_S1280x128_1_0_0_1_n_n.lhsIdx i q 1).val = (q ⟨0, by decide⟩).val :=
  dot_S1280x1280_S1280x128_S1280x128_1_0_0_1_n_n.lhsIdx_val_of_single rfl i q
/-- The right operand's row is the contraction coordinate. -/
theorem rhs_dot_0 (i : S1280x128.Idx) (q : dot_S1280x1280_S1280x128_S1280x128_1_0_0_1_n_n.contr.Idx) :
    (dot_S1280x1280_S1280x128_S1280x128_1_0_0_1_n_n.rhsIdx i q 0).val = (q ⟨0, by decide⟩).val :=
  dot_S1280x1280_S1280x128_S1280x128_1_0_0_1_n_n.rhsIdx_val_of_single rfl i q
/-- The right operand's column is the output's column. -/
theorem rhs_dot_1 (i : S1280x128.Idx) (q : dot_S1280x1280_S1280x128_S1280x128_1_0_0_1_n_n.contr.Idx) :
    (dot_S1280x1280_S1280x128_S1280x128_1_0_0_1_n_n.rhsIdx i q 1).val = (i 1).val := by
  unfold DotDims.rhsIdx
  rw [dif_neg (show ¬(1 : Fin S1280x128.rank) ∈ dot_S1280x1280_S1280x128_S1280x128_1_0_0_1_n_n.rhsBatch by decide), dif_pos (show (1 : Fin S1280x128.rank) ∈ dot_S1280x1280_S1280x128_S1280x128_1_0_0_1_n_n.rhsNonContracting by decide)]
  rfl

/-- The product of a `[1280, 1280]` matrix with a `[1280, 128]` one into the zero accumulator, read at `(n, d)`:
    the sum over the shared axis. -/
theorem matmul_zero_apply {φ₁ φ₂ : FTy} (L : FVec Ideal S1280x1280 φ₁) (R : FVec Ideal S1280x128 φ₂) (n : Fin 1280) (d : Fin 128) :
    matmul (F := Ideal) dot_S1280x1280_S1280x128_S1280x128_1_0_0_1_n_n none L R (constant (F := Ideal) S1280x128 .f32 0x00000000#32) (ix2 n d)
      = ∑ e : Fin 1280, L (ix2 n e) * R (ix2 e d) := by
  refine (Ideal.matmul_constant_zero_apply dot_S1280x1280_S1280x128_S1280x128_1_0_0_1_n_n none L R (ix2 n d)).trans ?_
  rw [← Equiv.sum_comp (contrEquiv1 dot_S1280x1280_S1280x128_S1280x128_1_0_0_1_n_n 1280 rfl rfl).symm]
  refine Finset.sum_congr rfl fun e _ => ?_
  have he := contrEquiv1_symm_val dot_S1280x1280_S1280x128_S1280x128_1_0_0_1_n_n 1280 rfl rfl e
  have el : dot_S1280x1280_S1280x128_S1280x128_1_0_0_1_n_n.lhsIdx (ix2 n d) ((contrEquiv1 dot_S1280x1280_S1280x128_S1280x128_1_0_0_1_n_n 1280 rfl rfl).symm e) = ix2 n e := funext fun a => Fin.ext (by
    match a with
    | ⟨0, _⟩ => exact lhs_dot_0 _ _
    | ⟨1, _⟩ => exact (lhs_dot_1 _ _).trans he)
  have er : dot_S1280x1280_S1280x128_S1280x128_1_0_0_1_n_n.rhsIdx (ix2 n d) ((contrEquiv1 dot_S1280x1280_S1280x128_S1280x128_1_0_0_1_n_n 1280 rfl rfl).symm e) = ix2 e d := funext fun a => Fin.ext (by
    match a with
    | ⟨0, _⟩ => exact (rhs_dot_0 _ _).trans he
    | ⟨1, _⟩ => exact rhs_dot_1 _ _)
  rw [el, er]

/-- The sum payload at `(0, n, d)`: the loaded block plus `Σ_e [1280 k + n = id e] · rows[e, d]`. -/
theorem pay6_apply (v5 : Vec Ideal S1x1x1x1280 .i32) (v9 : FVec Ideal S1280x128 .f32) (k : Fin k0_t2_loop.trips) (v25 : Vec Ideal S1x1280x128 .f32) (n : Fin 1280) (d : Fin 128) :
    k0_pay6 (F := Ideal) v5 v9 k v25 (ix3 0 n d)
      = v25 (ix3 0 n d) + ∑ e : Fin 1280, oh (BitVec.ofNat 32 (1280 * k.val + n.val) = v5 (ix4 0 0 0 e)) * v9 (ix2 e d) := by
  unfold k0_pay6
  refine (shapeCast_ab_1ab_apply _ shapeCasts_S1280x128_S1x1280x128 0 n d).trans ?_
  refine congrArg₂ (· + ·) (shapeCast_1ab_ab_apply v25 shapeCasts_S1x1280x128_S1280x128 n d) ?_
  refine (matmul_zero_apply _ _ n d).trans ?_
  refine Finset.sum_congr rfl fun e _ => ?_
  exact congrArg (· * v9 (ix2 e d)) (onehot_apply v5 k n e)

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over row `n` of the reduced vector, the source index with coordinate `e` on the dropped axis 1 is `(n, e)`. -/
theorem lift_row (n e : Fin 1280) :
    reduces_S1280x1280_S1280.lift (ix1 n) e = ix2 n e := by
  funext c
  apply Fin.ext
  match c with
  | ⟨0, _⟩ => rfl
  | ⟨1, _⟩ => rfl

/-- The count payload at `(0, n, d)`: the loaded block plus `Σ_e [1280 k + n = id e]`. -/
theorem pay7_apply (v5 : Vec Ideal S1x1x1x1280 .i32) (k : Fin k0_t2_loop.trips) (v37 : Vec Ideal S1x1280x128 .f32) (n : Fin 1280) (d : Fin 128) :
    k0_pay7 (F := Ideal) v5 k v37 (ix3 0 n d)
      = v37 (ix3 0 n d) + ∑ e : Fin 1280, oh (BitVec.ofNat 32 (1280 * k.val + n.val) = v5 (ix4 0 0 0 e)) := by
  unfold k0_pay7
  refine (shapeCast_ab_1ab_apply _ shapeCasts_S1280x128_S1x1280x128 0 n d).trans ?_
  refine congrArg₂ (· + ·) (shapeCast_1ab_ab_apply v37 shapeCasts_S1x1280x128_S1280x128 n d) ?_
  refine (broadcastTo_a1_ab_apply _ broadcasts_S1280x1_S1280x128 n d).trans ?_
  refine (congrFun (shapeCast_self _ shapeCasts_S1280x1_S1280x1) (ix2 n (0 : Fin 1))).trans ?_
  refine (shapeCast_a_a1_apply _ shapeCasts_S1280_S1280x1 n 0).trans ?_
  refine (Ideal.multiReduction_add_single (a := 1) _ _ reduces_S1280x1280_S1280 (.inl rfl) rfl (ix1 n)).trans ?_
  refine Finset.sum_congr rfl fun e _ => ?_
  exact (congrArg _ (lift_row n e)).trans (onehot_apply v5 k n e)

end Cert.KernelIdeal.Payload67

end
-- ==== Proof.Tiles.lean ====
/-
  The indicator selection of a padded-table row, tile by tile.

  The 10240 rows of the padded table are 8 tiles of 1280 rows: row `n'` is row `j` of tile `k` with
  `n' = 1280 * k + j`, quotient and remainder by 1280. The sum over the rows is therefore the double sum over tiles
  and rows within a tile, and a sum over the eight tile numbers is the sum over the naturals below 8.
-/
import proofs.«410679_j74045236183291_3_alg».proof.Proof.Spec
import Mathlib.Algebra.BigOperators.Fin
import Mathlib.Data.Fintype.BigOperators

noncomputable section

namespace Cert.Sage

open Idealize.ShloMosaic Idealize.ShloMosaic.ValueIdx

/-- Tile number and row within the tile are the quotient and remainder of a row number by 1280. -/
def tileEquiv : Fin 8 × Fin 1280 ≃ Fin 10240 where
  toFun p := ⟨1280 * p.1.val + p.2.val, by have := p.1.isLt; have := p.2.isLt; omega⟩
  invFun n := (⟨n.val / 1280, by have := n.isLt; omega⟩, ⟨n.val % 1280, by omega⟩)
  left_inv := by
    rintro ⟨k, j⟩
    have := k.isLt; have := j.isLt
    refine Prod.ext (Fin.ext ?_) (Fin.ext ?_)
    · show (1280 * k.val + j.val) / 1280 = k.val
      omega
    · show (1280 * k.val + j.val) % 1280 = j.val
      omega
  right_inv := by
    intro n
    apply Fin.ext
    show 1280 * (n.val / 1280) + n.val % 1280 = n.val
    omega

/-- A sum over the 10240 rows is the double sum over the 8 tiles and the 1280 rows of a tile. -/
theorem sum_tiles {M : Type*} [AddCommMonoid M] (g : Fin 10240 → M) :
    ∑ n' : Fin 10240, g n' = ∑ k : Fin 8, ∑ j : Fin 1280, g (tileEquiv (k, j)) := by
  rw [← Equiv.sum_comp tileEquiv g, Fintype.sum_prod_type]

/-- The indicator selection of a row, as a sum over the tiles (numbered by the naturals below 8) and the rows of a
    tile. -/
theorem gsel_eq_tiles (X : FVec Ideal SXP .f32) (r : BitVec 32) (d : Fin 128) :
    gsel X r d = ∑ k ∈ Finset.range 8, ∑ j : Fin 1280,
      if h : k < 8 then oh (BitVec.ofNat 32 (1280 * k + j.val) = r) * X (ix2 ⟨1280 * k + j.val, by have := j.isLt; omega⟩ d) else 0 := by
  refine Eq.trans ?_ (Fin.sum_univ_eq_sum_range _ 8)
  beta_reduce
  unfold gsel
  rw [sum_tiles]
  refine Finset.sum_congr rfl (fun k _ => Finset.sum_congr rfl (fun j _ => ?_))
  rw [dif_pos k.isLt]
  rfl

end Cert.Sage

end
-- ==== Proof.BlockValue.lean ====
/-
  One grid point of the kernel, read as values at an index: what the body leaves in the two output blocks.

  At a point whose chunk has source ids `x0` and destination ids `x1`, with the padded table `x2` resident, the body
  adds to row `n`, feature `d` of the running sum block the chunk's scatter term `dsum` (the rows the chunk's edges
  landing on `n` select from the table), and to the running count block the chunk's count `dcnt`; at the first point of a
  core's sweep both blocks start from zero.

  The gathered block is the fold of the eight tile steps: entry `(e, d)` accumulates, tile by tile, the indicator sum
  over that tile's 1280 rows, which over the eight tiles is the indicator sum over all 10240 rows (`gsel`). Row `n` of
  an output block sits in tile `n / 1280` at local row `n % 1280`, where the scatter step's one-hot row tests the word
  of `1280 (n / 1280) + n % 1280 = n` against the chunk's destination ids.
-/
import proofs.«410679_j74045236183291_3_alg».proof.Proof.OutPieces
import proofs.«410679_j74045236183291_3_alg».proof.Proof.Payload4
import proofs.«410679_j74045236183291_3_alg».proof.Proof.Payload67
import proofs.«410679_j74045236183291_3_alg».proof.Proof.Tiles

set_option maxRecDepth 16384

noncomputable section

open Idealize.ShloMosaic Idealize.ShloMosaic.TcCoe Idealize.SL.Sem Idealize.ShloMosaic.ValueIdx

namespace Cert.KernelIdeal.BlockValue

open Cert.KernelIdeal Cert.KernelIdeal.Gen Cert.KernelIdeal.Trips Cert.Sage

theorem trips1 : k0_t1_loop.trips = 8 := by decide
theorem trips2 : k0_t2_loop.trips = 8 := by decide

/-- Element `(j, d)` of tile `k` of the table is row `1280 k + j`. -/
theorem rect1_emb (k : Fin k0_t1_loop.trips) (j : Fin 1280) (d : Fin 128) (h : 1280 * k.val + j.val < 10240) :
    (rect1 k).emb (ix2 j d) = (ix2 ⟨1280 * k.val + j.val, h⟩ d : S10240x128.Idx) := by
  funext a
  apply Fin.ext
  have e := Rect.emb_apply (rect1 k) (ix2 j d) a
  match a with
  | ⟨0, _⟩ =>
    refine e.trans ?_
    show k0_off1 k 0 + 1 * j.val = 1280 * k.val + j.val
    rw [k0_off1_eq]; show 1280 * k.val + 1 * j.val = _; omega
  | ⟨1, _⟩ =>
    refine e.trans ?_
    show k0_off1 k 1 + 1 * d.val = d.val
    rw [k0_off1_eq]; show 0 + 1 * d.val = _; omega

/-- Element `(0, j, d)` of tile `k` of an output block is row `1280 k + j`. -/
theorem rect2_emb (k : Fin k0_t2_loop.trips) (j : Fin 1280) (d : Fin 128) (h : 1280 * k.val + j.val < 10240) :
    (rect2 k).emb (ix3 0 j d) = (ix3 0 ⟨1280 * k.val + j.val, h⟩ d : S1x10240x128.Idx) := by
  funext a
  apply Fin.ext
  have e := Rect.emb_apply (rect2 k) (ix3 0 j d) a
  match a with
  | ⟨0, _⟩ =>
    refine e.trans ?_
    show k0_off2 k 0 + 1 * 0 = 0
    rw [k0_off2_eq]; rfl
  | ⟨1, _⟩ =>
    refine e.trans ?_
    show k0_off2 k 1 + 1 * j.val = 1280 * k.val + j.val
    rw [k0_off2_eq]; show 1280 * k.val + 1 * j.val = _; omega
  | ⟨2, _⟩ =>
    refine e.trans ?_
    show k0_off2 k 2 + 1 * d.val = d.val
    rw [k0_off2_eq]; show 0 + 1 * d.val = _; omega

/-- The carried block before trip `n`, at `(e, d)`: the indicator sums of the tiles before `n`. -/
theorem gath_range (x0 : Vec Ideal S1x1x1x1280 .i32) (x2 : Vec Ideal S10240x128 .f32) (e : Fin 1280) (d : Fin 128) :
    ∀ n : ℕ, n ≤ 8 → gath (F := Ideal) x0 x2 n (ix2 e d)
      = ∑ k ∈ Finset.range n, ∑ j : Fin 1280,
          if h : k < 8 then oh (BitVec.ofNat 32 (1280 * k + j.val) = x0 (ix4 0 0 0 e))
            * x2 (ix2 ⟨1280 * k + j.val, by have := j.isLt; omega⟩ d) else 0
  | 0, _ => by
    rw [Finset.range_zero, Finset.sum_empty]
    exact Payload4.pay3_apply _
  | n + 1, hn => by
    have hn8 : n < 8 := hn
    have ht : n < k0_t1_loop.trips := by rw [trips1]; exact hn8
    rw [gath, dif_pos ht, Payload4.pay4_apply, gath_range x0 x2 e d n (Nat.le_of_succ_le hn), Finset.sum_range_succ]
    refine congrArg (fun t : EReal => (∑ k ∈ Finset.range n, ∑ j : Fin 1280,
          if h : k < 8 then oh (BitVec.ofNat 32 (1280 * k + j.val) = x0 (ix4 0 0 0 e))
            * x2 (ix2 ⟨1280 * k + j.val, by have := j.isLt; omega⟩ d) else 0) + t) (Finset.sum_congr rfl fun j _ => ?_)
    rw [dif_pos hn8]
    refine congrArg (fun t : EReal => oh (BitVec.ofNat 32 (1280 * n + j.val) = x0 (ix4 0 0 0 e)) * t) ?_
    show x2 ((rect1 ⟨n, ht⟩).emb (ix2 j d)) = _
    rw [rect1_emb ⟨n, ht⟩ j d (by have := j.isLt; show 1280 * n + j.val < 10240; omega)]

/-- The gathered block: entry `(e, d)` is the table's row selected by the chunk's source id at lane `e`. -/
theorem gath_apply (x0 : Vec Ideal S1x1x1x1280 .i32) (x2 : Vec Ideal S10240x128 .f32) (e : Fin 1280) (d : Fin 128) :
    gath (F := Ideal) x0 x2 k0_t1_loop.trips (ix2 e d) = gsel x2 (x0 (ix4 0 0 0 e)) d := by
  rw [trips1, gath_range x0 x2 e d 8 (Nat.le_refl 8), gsel_eq_tiles]

/-- Row `n` of an output block as an element of its tile. -/
theorem row_split (n : Fin 10240) (d : Fin 128) :
    ∃ (k : Fin k0_t2_loop.trips) (j : Fin 1280), 1280 * k.val + j.val = n.val
      ∧ (ix3 0 n d : S1x10240x128.Idx) = (rect2 k).emb (ix3 0 j d) := by
  have hn := n.isLt
  have hk : n.val / 1280 < k0_t2_loop.trips := by rw [trips2]; omega
  have hj : n.val % 1280 < 1280 := Nat.mod_lt _ (by decide)
  have hs : 1280 * (n.val / 1280) + n.val % 1280 = n.val := Nat.div_add_mod n.val 1280
  refine ⟨⟨n.val / 1280, hk⟩, ⟨n.val % 1280, hj⟩, hs, ?_⟩
  rw [rect2_emb ⟨n.val / 1280, hk⟩ ⟨n.val % 1280, hj⟩ d (by show 1280 * (n.val / 1280) + n.val % 1280 < 10240; omega)]
  exact congrArg (fun r => (ix3 0 r d : S1x10240x128.Idx)) (Fin.ext hs.symm)

theorem out0_B_3_apply (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : ¬cond0_0 i)
    (x0 x1 : Vec Ideal S1x1x1x1280 .i32) (x2 : Vec Ideal S10240x128 .f32) (xo3 xo4 : Vec Ideal S1x10240x128 .f32)
    (n : Fin 10240) (d : Fin 128) :
    out0_B_3 (F := Ideal) c i arg2 harg2 arg3 harg3 arg4 harg4 arg5 harg5 arg6 harg6 hc0 x0 x1 x2 xo3 xo4 (ix3 0 n d)
      = xo3 (ix3 0 n d) + dsum (fun e => x0 (ix4 0 0 0 e)) (fun e => x1 (ix4 0 0 0 e)) x2 n d := by
  obtain ⟨k, j, hs, hy⟩ := row_split n d
  rw [hy, out0_B_3_piece, Payload67.pay6_apply]
  show xo3 ((rect2 k).emb (ix3 0 j d)) + _ = _
  rw [← hy]
  refine congrArg (fun t => xo3 (ix3 0 n d) + t) (Finset.sum_congr rfl fun e _ => ?_)
  rw [hs, gath_apply]

theorem out0_B_4_apply (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : ¬cond0_0 i)
    (x0 x1 : Vec Ideal S1x1x1x1280 .i32) (x2 : Vec Ideal S10240x128 .f32) (xo3 xo4 : Vec Ideal S1x10240x128 .f32)
    (n : Fin 10240) (d : Fin 128) :
    out0_B_4 (F := Ideal) c i arg2 harg2 arg3 harg3 arg4 harg4 arg5 harg5 arg6 harg6 hc0 x0 x1 x2 xo3 xo4 (ix3 0 n d)
      = xo4 (ix3 0 n d) + dcnt (fun e => x1 (ix4 0 0 0 e)) n := by
  obtain ⟨k, j, hs, hy⟩ := row_split n d
  rw [hy, out0_B_4_piece, Payload67.pay7_apply]
  show xo4 ((rect2 k).emb (ix3 0 j d)) + _ = _
  rw [← hy]
  refine congrArg (fun t => xo4 (ix3 0 n d) + t) (Finset.sum_congr rfl fun e _ => ?_)
  rw [hs]

theorem out0_A_3_apply (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : cond0_0 i)
    (x0 x1 : Vec Ideal S1x1x1x1280 .i32) (x2 : Vec Ideal S10240x128 .f32) (n : Fin 10240) (d : Fin 128) :
    out0_A_3 (F := Ideal) c i arg2 harg2 arg3 harg3 arg4 harg4 arg5 harg5 arg6 harg6 hc0 x0 x1 x2 (ix3 0 n d)
      = dsum (fun e => x0 (ix4 0 0 0 e)) (fun e => x1 (ix4 0 0 0 e)) x2 n d := by
  obtain ⟨k, j, hs, hy⟩ := row_split n d
  rw [hy, out0_A_3_piece, Payload67.pay6_apply]
  show k0_pay1 (F := Ideal) ((rect2 k).emb (ix3 0 j d)) + _ = _
  rw [Payload4.pay1_apply, zero_add]
  refine Finset.sum_congr rfl fun e _ => ?_
  rw [hs, gath_apply]

theorem out0_A_4_apply (c : Dev nD) (i : grid0.Coords) (arg2 : Memref sig .tc .vmem S1x1x1x1280 .i32) (harg2 : arg2.IsWhole) (arg3 : Memref sig .tc .vmem S1x1x1x1280 .i32) (harg3 : arg3.IsWhole) (arg4 : Memref sig .tc .vmem S10240x128 .f32) (harg4 : arg4.IsWhole) (arg5 : Memref sig .tc .vmem S1x10240x128 .f32) (harg5 : arg5.IsWhole) (arg6 : Memref sig .tc .vmem S1x10240x128 .f32) (harg6 : arg6.IsWhole) (hc0 : cond0_0 i)
    (x0 x1 : Vec Ideal S1x1x1x1280 .i32) (x2 : Vec Ideal S10240x128 .f32) (n : Fin 10240) (d : Fin 128) :
    out0_A_4 (F := Ideal) c i arg2 harg2 arg3 harg3 arg4 harg4 arg5 harg5 arg6 harg6 hc0 x0 x1 x2 (ix3 0 n d)
      = dcnt (fun e => x1 (ix4 0 0 0 e)) n := by
  obtain ⟨k, j, hs, hy⟩ := row_split n d
  rw [hy, out0_A_4_piece, Payload67.pay7_apply]
  show k0_pay2 (F := Ideal) ((rect2 k).emb (ix3 0 j d)) + _ = _
  rw [Payload4.pay2_apply, zero_add]
  refine Finset.sum_congr rfl fun e _ => ?_
  rw [hs]

end Cert.KernelIdeal.BlockValue

end
-- ==== Proof.Region.lean ====
/-
  The two result arrays of the kernel's region: core `cc`'s block of each is what its 250 points accumulated.

  Point `t = cc·250 + i` of the grid reads chunk `(cc, i)` of the two chunked id arrays and the whole padded table, and
  adds the chunk's scatter term `dsum` (its count `dcnt`) to core `cc`'s block of the sum (count) array, which starts
  from that term alone at `i = 0`. So after point `t` the block holds the sum of the terms of chunks `0 … i` of core
  `cc` (induction on the point); at `i = 249`, where the block is written back, that is `psum` (`pcnt`) of the core;
  and the two cores' blocks cover each array.
-/
import proofs.«410679_j74045236183291_3_alg».proof.Proof.BlockValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Sage

variable (m : (ℓ : Loc nD τ sig) → Buf (Elt Ideal) ℓ) (ρ : Dev nD → PrngReg)

/-- The source ids' window: its block index at point `t` is `(core, chunk, 0, 0)`, decided once over the grid. -/
theorem idx0 : ∀ t : Fin grid0.N, win0_0.index t 0 = t.val / 250 ∧ win0_0.index t 1 = t.val % 250 ∧ win0_0.index t 2 = 0 ∧ win0_0.index t 3 = 0 := by
  decide +kernel

/-- Likewise for the destination ids' window, -/
theorem idx1 : ∀ t : Fin grid0.N, win0_1.index t 0 = t.val / 250 ∧ win0_1.index t 1 = t.val % 250 ∧ win0_1.index t 2 = 0 ∧ win0_1.index t 3 = 0 := by
  decide +kernel

/-- and for the two result windows: the block index is the core, and does not move along a core's chunks. -/
theorem idx3 : ∀ t : Fin grid0.N, win0_3.index t 0 = t.val / 250 ∧ win0_3.index t 1 = 0 ∧ win0_3.index t 2 = 0 := by
  decide +kernel

theorem idx4 : ∀ t : Fin grid0.N, win0_4.index t 0 = t.val / 250 ∧ win0_4.index t 1 = 0 ∧ win0_4.index t 2 = 0 := by
  decide +kernel

/-- The three input blocks at point `t`, and the three arrays they are cut from, at their literal types. -/
abbrev rblk (c : Dev nD) (t : Fin cfg0.N) : Vec Ideal S1x1x1x1280 .i32 := iblk m c 0 t
abbrev cblk (c : Dev nD) (t : Fin cfg0.N) : Vec Ideal S1x1x1x1280 .i32 := iblk m c 1 t
abbrev xblk (c : Dev nD) (t : Fin cfg0.N) : Vec Ideal S10240x128 .f32 := iblk m c 2 t

abbrev RR (c : Dev nD) : IVec SCH 32 := V m c main_v11
abbrev CC (c : Dev nD) : IVec SCH 32 := V m c main_v12
abbrev XX (c : Dev nD) : FVec Ideal SXP .f32 := V m c main_v13

/-- Point `t`'s coordinates: its core and its chunk. -/
abbrev coreOf (t : Fin cfg0.N) : Fin 2 := ⟨t.val / 250, by have := lt_of_lt_of_eq t.isLt (show cfg0.N = 500 from N_0); omega⟩
abbrev chunkOf (t : Fin cfg0.N) : Fin 250 := ⟨t.val % 250, Nat.mod_lt _ (by decide)⟩

/-- Lane `e` of the source ids' block at point `t` is lane `e` of chunk `(core, chunk)` of the chunked array: a block's
    coordinate is its index times its size plus the coordinate inside it. -/
theorem rblk_apply (c : Dev nD) (t : Fin cfg0.N) (e : Fin 1280) :
    rblk m c t (ix4 0 0 0 e) = RR m c (ix4 (coreOf t) (chunkOf t) 0 e) := by
  obtain ⟨h0, h1, h2, h3⟩ := idx0 t
  unfold rblk iblk
  rw [View.read_apply]
  show V m c main_v11 _ = V m c main_v11 _
  congr 1
  funext a
  apply Fin.ext
  match a with
  | ⟨0, _⟩ => show win0_0.index t 0 * 1 + 1 * 0 = t.val / 250; rw [h0]; omega
  | ⟨1, _⟩ => show win0_0.index t 1 * 1 + 1 * 0 = t.val % 250; rw [h1]; omega
  | ⟨2, _⟩ => show win0_0.index t 2 * 1 + 1 * 0 = 0; rw [h2]
  | ⟨3, _⟩ => show win0_0.index t 3 * 1280 + 1 * e.val = e.val; rw [h3]; omega

/-- The same for the destination ids. -/
theorem cblk_apply (c : Dev nD) (t : Fin cfg0.N) (e : Fin 1280) :
    cblk m c t (ix4 0 0 0 e) = CC m c (ix4 (coreOf t) (chunkOf t) 0 e) := by
  obtain ⟨h0, h1, h2, h3⟩ := idx1 t
  unfold cblk iblk
  rw [View.read_apply]
  show V m c main_v12 _ = V m c main_v12 _
  congr 1
  funext a
  apply Fin.ext
  match a with
  | ⟨0, _⟩ => show win0_1.index t 0 * 1 + 1 * 0 = t.val / 250; rw [h0]; omega
  | ⟨1, _⟩ => show win0_1.index t 1 * 1 + 1 * 0 = t.val % 250; rw [h1]; omega
  | ⟨2, _⟩ => show win0_1.index t 2 * 1 + 1 * 0 = 0; rw [h2]
  | ⟨3, _⟩ => show win0_1.index t 3 * 1280 + 1 * e.val = e.val; rw [h3]; omega

/-- The table's one block is the whole table: its index is zero on both axes at every point. -/
theorem idx2 : ∀ t : Fin grid0.N, win0_2.index t 0 = 0 ∧ win0_2.index t 1 = 0 := by
  decide +kernel

theorem xblk_eq (c : Dev nD) (t : Fin cfg0.N) : xblk m c t = XX m c := by
  obtain ⟨h0, h1⟩ := idx2 t
  funext j
  unfold xblk iblk
  rw [View.read_apply]
  show V m c main_v13 _ = V m c main_v13 _
  congr 1
  funext a
  apply Fin.ext
  match a with
  | ⟨0, _⟩ => show win0_2.index t 0 * 10240 + 1 * (j 0).val = (j 0).val; rw [h0]; omega
  | ⟨1, _⟩ => show win0_2.index t 1 * 128 + 1 * (j 1).val = (j 1).val; rw [h1]; omega

/-- What chunk `i` of core `cc` adds to row `n`, feature `d` of the core's sum, and to row `n` of its count. -/
def g3 (c : Dev nD) (cc : Fin 2) (i : Fin 250) (n : Fin 10240) (d : Fin 128) : EReal :=
  dsum (fun e => RR m c (ix4 cc i 0 e)) (fun e => CC m c (ix4 cc i 0 e)) (XX m c) n d
def g4 (c : Dev nD) (cc : Fin 2) (i : Fin 250) (n : Fin 10240) : EReal :=
  dcnt (fun e => CC m c (ix4 cc i 0 e)) n

/-- The same, by the point's number (zero past the grid). -/
def a3 (c : Dev nD) (s : ℕ) (n : Fin 10240) (d : Fin 128) : EReal :=
  if h : s < 500 then g3 m c ⟨s / 250, by omega⟩ ⟨s % 250, Nat.mod_lt _ (by decide)⟩ n d else 0
def a4 (c : Dev nD) (s : ℕ) (n : Fin 10240) : EReal :=
  if h : s < 500 then g4 m c ⟨s / 250, by omega⟩ ⟨s % 250, Nat.mod_lt _ (by decide)⟩ n else 0

/-- At point `cc·250 + i` these are core `cc`'s, chunk `i`'s. -/
theorem a3_at (c : Dev nD) (cc : Fin 2) (i : Fin 250) (n : Fin 10240) (d : Fin 128) :
    a3 m c (cc.val * 250 + i.val) n d = g3 m c cc i n d := by
  have hc := cc.isLt
  have hi := i.isLt
  unfold a3
  rw [dif_pos (by omega)]
  exact congrArg₂ (fun a b => g3 m c a b n d) (Fin.ext (by dsimp only; omega)) (Fin.ext (by dsimp only; omega))

theorem a4_at (c : Dev nD) (cc : Fin 2) (i : Fin 250) (n : Fin 10240) :
    a4 m c (cc.val * 250 + i.val) n = g4 m c cc i n := by
  have hc := cc.isLt
  have hi := i.isLt
  unfold a4
  rw [dif_pos (by omega)]
  exact congrArg₂ (fun a b => g4 m c a b n) (Fin.ext (by dsimp only; omega)) (Fin.ext (by dsimp only; omega))

/-- The body's term at point `t`, read through the windows, is the term of `t`'s core and chunk. -/
theorem term3 (c : Dev nD) (t : Fin cfg0.N) (n : Fin 10240) (d : Fin 128) :
    dsum (fun e => rblk m c t (ix4 0 0 0 e)) (fun e => cblk m c t (ix4 0 0 0 e)) (xblk m c t) n d = a3 m c t.val n d := by
  have hN : t.val < 500 := lt_of_lt_of_eq t.isLt (show cfg0.N = 500 from N_0)
  unfold a3 g3
  rw [dif_pos hN, xblk_eq]
  simp only [rblk_apply, cblk_apply]

theorem term4 (c : Dev nD) (t : Fin cfg0.N) (n : Fin 10240) :
    dcnt (fun e => cblk m c t (ix4 0 0 0 e)) n = a4 m c t.val n := by
  have hN : t.val < 500 := lt_of_lt_of_eq t.isLt (show cfg0.N = 500 from N_0)
  unfold a4 g4
  rw [dif_pos hN]
  simp only [cblk_apply]

/-- THE RUNNING SUM. After point `t` the sum block holds, at row `n`, feature `d`, the terms of the points of `t`'s
    core from its first up to `t`. -/
theorem acc3 (c : Dev nD) : ∀ (t : ℕ) (h : t < cfg0.N) (n : Fin 10240) (d : Fin 128),
    (outsAt0 m c t h).1 (ix3 0 n d) = ∑ s ∈ Finset.range (t % 250 + 1), a3 m c (t - t % 250 + s) n d
  | 0, h, n, d => by
    rw [outsAt0_A m c ⟨0, h⟩ rfl]
    dsimp only
    refine (BlockValue.out0_A_3_apply c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (rblk m c ⟨0, h⟩) (cblk m c ⟨0, h⟩) (xblk m c ⟨0, h⟩) n d).trans ?_
    rw [term3]
    simp
  | t + 1, h, n, d => by
    by_cases h0 : (t + 1) % 250 = 0
    · rw [outsAt0_A m c ⟨t + 1, h⟩ h0]
      dsimp only
      refine (BlockValue.out0_A_3_apply c (grid0.coords ⟨t + 1, h⟩) (ms0_0 ⟨t + 1, h⟩) (hs0_0 ⟨t + 1, h⟩) (ms0_1 ⟨t + 1, h⟩) (hs0_1 ⟨t + 1, h⟩)
        (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) ((hcond0_0 ⟨t + 1, h⟩).mpr h0)
        (rblk m c ⟨t + 1, h⟩) (cblk m c ⟨t + 1, h⟩) (xblk m c ⟨t + 1, h⟩) n d).trans ?_
      rw [term3, h0, Finset.sum_range_one]
      rfl
    · rw [outsAt0_B m c ⟨t + 1, h⟩ h0]
      dsimp only
      refine (BlockValue.out0_B_3_apply c (grid0.coords ⟨t + 1, h⟩) (ms0_0 ⟨t + 1, h⟩) (hs0_0 ⟨t + 1, h⟩) (ms0_1 ⟨t + 1, h⟩) (hs0_1 ⟨t + 1, h⟩)
        (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) (fun hh => h0 ((hcond0_0 ⟨t + 1, h⟩).mp hh))
        (rblk m c ⟨t + 1, h⟩) (cblk m c ⟨t + 1, h⟩) (xblk m c ⟨t + 1, h⟩) _ _ n d).trans ?_
      rw [term3]
      show (outsAt0 m c t (Nat.lt_of_succ_lt h)).1 (ix3 0 n d) + a3 m c (t + 1) n d = _
      rw [acc3 c t (Nat.lt_of_succ_lt h) n d]
      have e1 : (t + 1) % 250 = t % 250 + 1 := by omega
      have e2 : t + 1 - (t % 250 + 1) = t - t % 250 := by omega
      have e3 : t - t % 250 + (t % 250 + 1) = t + 1 := by omega
      rw [e1, Finset.sum_range_succ _ (t % 250 + 1), e2, e3]

/-- THE RUNNING COUNT, likewise. -/
theorem acc4 (c : Dev nD) : ∀ (t : ℕ) (h : t < cfg0.N) (n : Fin 10240) (d : Fin 128),
    (outsAt0 m c t h).2 (ix3 0 n d) = ∑ s ∈ Finset.range (t % 250 + 1), a4 m c (t - t % 250 + s) n
  | 0, h, n, d => by
    rw [outsAt0_A m c ⟨0, h⟩ rfl]
    dsimp only
    refine (BlockValue.out0_A_4_apply c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (rblk m c ⟨0, h⟩) (cblk m c ⟨0, h⟩) (xblk m c ⟨0, h⟩) n d).trans ?_
    rw [term4]
    simp
  | t + 1, h, n, d => by
    by_cases h0 : (t + 1) % 250 = 0
    · rw [outsAt0_A m c ⟨t + 1, h⟩ h0]
      dsimp only
      refine (BlockValue.out0_A_4_apply c (grid0.coords ⟨t + 1, h⟩) (ms0_0 ⟨t + 1, h⟩) (hs0_0 ⟨t + 1, h⟩) (ms0_1 ⟨t + 1, h⟩) (hs0_1 ⟨t + 1, h⟩)
        (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) ((hcond0_0 ⟨t + 1, h⟩).mpr h0)
        (rblk m c ⟨t + 1, h⟩) (cblk m c ⟨t + 1, h⟩) (xblk m c ⟨t + 1, h⟩) n d).trans ?_
      rw [term4, h0, Finset.sum_range_one]
      rfl
    · rw [outsAt0_B m c ⟨t + 1, h⟩ h0]
      dsimp only
      refine (BlockValue.out0_B_4_apply c (grid0.coords ⟨t + 1, h⟩) (ms0_0 ⟨t + 1, h⟩) (hs0_0 ⟨t + 1, h⟩) (ms0_1 ⟨t + 1, h⟩) (hs0_1 ⟨t + 1, h⟩)
        (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) (fun hh => h0 ((hcond0_0 ⟨t + 1, h⟩).mp hh))
        (rblk m c ⟨t + 1, h⟩) (cblk m c ⟨t + 1, h⟩) (xblk m c ⟨t + 1, h⟩) _ _ n d).trans ?_
      rw [term4]
      show (outsAt0 m c t (Nat.lt_of_succ_lt h)).2 (ix3 0 n d) + a4 m c (t + 1) n = _
      rw [acc4 c t (Nat.lt_of_succ_lt h) n d]
      have e1 : (t + 1) % 250 = t % 250 + 1 := by omega
      have e2 : t + 1 - (t % 250 + 1) = t - t % 250 := by omega
      have e3 : t - t % 250 + (t % 250 + 1) = t + 1 := by omega
      rw [e1, Finset.sum_range_succ _ (t % 250 + 1), e2, e3]

/-- At the last point of a core's sweep the blocks hold the core's whole partial sum and count. -/
theorem full3 (c : Dev nD) (t : Fin cfg0.N) (h249 : t.val % 250 = 249) (n : Fin 10240) (d : Fin 128) :
    (outsAt0 m c t.val t.isLt).1 (ix3 0 n d) = psum (RR m c) (CC m c) (XX m c) (coreOf t) n d := by
  rw [acc3 m c t.val t.isLt n d, h249, Finset.sum_range]
  unfold psum
  refine Finset.sum_congr rfl fun i _ => ?_
  rw [show t.val - 249 + i.val = (coreOf t).val * 250 + i.val from by dsimp only; omega, a3_at]
  rfl

/-- and its whole partial count. -/
theorem full4 (c : Dev nD) (t : Fin cfg0.N) (h249 : t.val % 250 = 249) (n : Fin 10240) (d : Fin 128) :
    (outsAt0 m c t.val t.isLt).2 (ix3 0 n d) = pcnt (CC m c) (coreOf t) n := by
  rw [acc4 m c t.val t.isLt n d, h249, Finset.sum_range]
  unfold pcnt
  refine Finset.sum_congr rfl fun i _ => ?_
  rw [show t.val - 249 + i.val = (coreOf t).val * 250 + i.val from by dsimp only; omega, a4_at]
  rfl

/-- The two result arrays the region ends with. -/
abbrev G3 (c : Dev nD) : FVec Ideal S2x10240x128 .f32 :=
  fun y => psum (RR m c) (CC m c) (XX m c) (y 0) (y 1) (y 2)
abbrev G4 (c : Dev nD) : FVec Ideal S2x10240x128 .f32 :=
  fun y => pcnt (CC m c) (y 0) (y 1)

/-- Element `(0, n, d)` of the block flushed at point `t` is element `(core, n, d)` of the array. -/
theorem emb3 (t : Fin cfg0.N) (n : Fin 10240) (d : Fin 128) :
    (((cfg0.win 3).blk t).view.emb (ix3 (0 : Fin 1) n d) : S2x10240x128.Idx) = ix3 (coreOf t) n d := by
  obtain ⟨h0, h1, h2⟩ := idx3 t
  funext a
  apply Fin.ext
  match a with
  | ⟨0, _⟩ => show win0_3.index t 0 * 1 + 1 * 0 = t.val / 250; rw [h0]; omega
  | ⟨1, _⟩ => show win0_3.index t 1 * 10240 + 1 * n.val = n.val; rw [h1]; omega
  | ⟨2, _⟩ => show win0_3.index t 2 * 128 + 1 * d.val = d.val; rw [h2]; omega

/-- A write-back happens at the last point of a core's sweep only, and writes that core's block of the partial sums. -/
theorem flushed3 (c : Dev nD) (t : Fin cfg0.N) (hf : (cfg0.win 3).flush t = true) :
    (dats m 0 c).flushed 3 t = ((cfg0.win 3).blk t).view.read (Elt Ideal) (G3 m c) := by
  have h249 : t.val % 250 = 249 := (flush0_3 t).mp hf
  show (cfg0.win 3).cut (grid0.coords t) ((dats m 0 c).after 3 t) = _
  rw [after0_3]
  suffices hh : ∀ y : S1x10240x128.Idx, (outsAt0 m c t.val t.isLt).1 y = G3 m c (((cfg0.win 3).blk t).view.emb y) from funext hh
  intro y
  obtain ⟨n, d, rfl⟩ : ∃ (n : Fin 10240) (d : Fin 128), y = ix3 (0 : Fin 1) n d :=
    ⟨y 1, y 2, (eq_ix3 y).trans (by rw [(Fin.eq_zero (y 0) : y 0 = (0 : Fin 1))]; rfl)⟩
  rw [full3 m c t h249 n d, emb3 t n d]

/-- The same for the count array. -/
theorem emb4 (t : Fin cfg0.N) (n : Fin 10240) (d : Fin 128) :
    (((cfg0.win 4).blk t).view.emb (ix3 (0 : Fin 1) n d) : S2x10240x128.Idx) = ix3 (coreOf t) n d := by
  obtain ⟨h0, h1, h2⟩ := idx4 t
  funext a
  apply Fin.ext
  match a with
  | ⟨0, _⟩ => show win0_4.index t 0 * 1 + 1 * 0 = t.val / 250; rw [h0]; omega
  | ⟨1, _⟩ => show win0_4.index t 1 * 10240 + 1 * n.val = n.val; rw [h1]; omega
  | ⟨2, _⟩ => show win0_4.index t 2 * 128 + 1 * d.val = d.val; rw [h2]; omega

theorem flushed4 (c : Dev nD) (t : Fin cfg0.N) (hf : (cfg0.win 4).flush t = true) :
    (dats m 0 c).flushed 4 t = ((cfg0.win 4).blk t).view.read (Elt Ideal) (G4 m c) := by
  have h249 : t.val % 250 = 249 := (flush0_4 t).mp hf
  show (cfg0.win 4).cut (grid0.coords t) ((dats m 0 c).after 4 t) = _
  rw [after0_4]
  suffices hh : ∀ y : S1x10240x128.Idx, (outsAt0 m c t.val t.isLt).2 y = G4 m c (((cfg0.win 4).blk t).view.emb y) from funext hh
  intro y
  obtain ⟨n, d, rfl⟩ : ∃ (n : Fin 10240) (d : Fin 128), y = ix3 (0 : Fin 1) n d :=
    ⟨y 1, y 2, (eq_ix3 y).trans (by rw [(Fin.eq_zero (y 0) : y 0 = (0 : Fin 1))]; rfl)⟩
  rw [full4 m c t h249 n d, emb4 t n d]

/-- The last point of core `cc`'s sweep. -/
abbrev lastOf (cc : ℕ) (h : cc < 2) : Fin cfg0.N := ⟨cc * 250 + 249, by rw [show cfg0.N = 500 from N_0]; omega⟩

/-- Every element `(cc, n, d)` of the sum array lies in the block written back at core `cc`'s last point, so the array ends
    holding the partial sums. -/
theorem final3 (c : Dev nD) :
    (dats m 0 c).arrAt 3 cfg0.N
      = (fun y => psum (V m c main_v11) (V m c main_v12) (V m c main_v13) (y 0) (y 1) (y 2) : FVec Ideal S2x10240x128 .f32) :=
  (dats m 0 c).arrAt_eq_of_cover 3 (G3 m c) (flushed3 m c) fun i => by
    have b0 : (i 0 : Nat) < 2 := (i 0).isLt
    have b1 : (i 1 : Nat) < 10240 := (i 1).isLt
    have b2 : (i 2 : Nat) < 128 := (i 2).isLt
    refine ⟨lastOf (i 0 : Nat) b0, (flush0_3 _).mpr (by dsimp only; omega), ?_⟩
    obtain ⟨h0, h1, h2⟩ := idx3 (lastOf (i 0 : Nat) b0)
    show i ∈ ((View.whole main_v14_0).slice (win0_3.rect (lastOf (i 0 : Nat) b0))).set
    rw [View.set_slice_whole, Rect.mem_set_unit]
    intro a
    match a with
    | ⟨0, _⟩ =>
      show win0_3.index (lastOf (i 0 : Nat) b0) 0 * 1 ≤ (i 0 : Nat) ∧ (i 0 : Nat) < win0_3.index (lastOf (i 0 : Nat) b0) 0 * 1 + 1
      rw [h0]; dsimp only; omega
    | ⟨1, _⟩ =>
      show win0_3.index (lastOf (i 0 : Nat) b0) 1 * 10240 ≤ (i 1 : Nat) ∧ (i 1 : Nat) < win0_3.index (lastOf (i 0 : Nat) b0) 1 * 10240 + 10240
      rw [h1]; omega
    | ⟨2, _⟩ =>
      show win0_3.index (lastOf (i 0 : Nat) b0) 2 * 128 ≤ (i 2 : Nat) ∧ (i 2 : Nat) < win0_3.index (lastOf (i 0 : Nat) b0) 2 * 128 + 128
      rw [h2]; omega

/-- The count array, likewise, ends holding the partial counts. -/
theorem final4 (c : Dev nD) :
    (dats m 0 c).arrAt 4 cfg0.N
      = (fun y => pcnt (V m c main_v12) (y 0) (y 1) : FVec Ideal S2x10240x128 .f32) :=
  (dats m 0 c).arrAt_eq_of_cover 4 (G4 m c) (flushed4 m c) fun i => by
    have b0 : (i 0 : Nat) < 2 := (i 0).isLt
    have b1 : (i 1 : Nat) < 10240 := (i 1).isLt
    have b2 : (i 2 : Nat) < 128 := (i 2).isLt
    refine ⟨lastOf (i 0 : Nat) b0, (flush0_4 _).mpr (by dsimp only; omega), ?_⟩
    obtain ⟨h0, h1, h2⟩ := idx4 (lastOf (i 0 : Nat) b0)
    show i ∈ ((View.whole main_v14_1).slice (win0_4.rect (lastOf (i 0 : Nat) b0))).set
    rw [View.set_slice_whole, Rect.mem_set_unit]
    intro a
    match a with
    | ⟨0, _⟩ =>
      show win0_4.index (lastOf (i 0 : Nat) b0) 0 * 1 ≤ (i 0 : Nat) ∧ (i 0 : Nat) < win0_4.index (lastOf (i 0 : Nat) b0) 0 * 1 + 1
      rw [h0]; dsimp only; omega
    | ⟨1, _⟩ =>
      show win0_4.index (lastOf (i 0 : Nat) b0) 1 * 10240 ≤ (i 1 : Nat) ∧ (i 1 : Nat) < win0_4.index (lastOf (i 0 : Nat) b0) 1 * 10240 + 10240
      rw [h1]; omega
    | ⟨2, _⟩ =>
      show win0_4.index (lastOf (i 0 : Nat) b0) 2 * 128 ≤ (i 2 : Nat) ∧ (i 2 : Nat) < win0_4.index (lastOf (i 0 : Nat) b0) 2 * 128 + 128
      rw [h2]; omega

end Cert.KernelIdeal.Region

end
-- ==== Proof.HostTail.lean ====
/-
  The host lines after the kernel's region: the two cores' blocks of the partial sums and of the partial counts are
  added, the counts floored at one, the quotient cut to the 10000 node rows, and the common tail (concatenation with
  the features, the product with the transposed weights, the bias) applied. The result buffer holds the common tail of
  the arguments and of the mean `kmean` formed from the region's two result arrays; the four arguments end as launched.
-/
import proofs.«410679_j74045236183291_3_alg».proof.Proof.Region
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostTail

open Cert.KernelIdeal Cert.KernelIdeal.Gen Cert.Sage

variable (m : (ℓ : Loc nD τ sig) → Buf (Elt Ideal) ℓ) (ρ : Dev nD → PrngReg)

/-- The common tail: the features and the mean side by side, times the transposed weights, plus the bias on every row. -/
def tailK (a mn : FVec Ideal S10000x128 .f32) (w : FVec Ideal S128x256 .f32) (b : FVec Ideal S128 .f32) : FVec Ideal S10000x128 .f32 :=
  addf (Host.dotGeneral (F := Ideal) dot_S10000x256_S256x128_S10000x128_1_0_0_1_n_n none
      (concatenate S10000x256 1 [⟨S10000x128, a⟩, ⟨S10000x128, mn⟩] concatenates_S10000x128_S10000x128_S10000x256_d1)
      (transpose S256x128 [1, 0] w transposes_S128x256_S256x128_1_0))
    (broadcastInDim S10000x128 ![0, 1] bcast_S1x128_S10000x128_0_1 (broadcastInDim S1x128 ![1] bcast_S128_S1x128_1 b))

/-- The two cores' blocks of a partial array added: row `n`, feature `d` of the sum of the two slices. -/
def partK (A : FVec Ideal S2x10240x128 .f32) : FVec Ideal S10240x128 .f32 :=
  addf (shapeCast S10240x128 (extractStridedSlice S1x10240x128 ![0, 0, 0] A slices_S2x10240x128_S1x10240x128_0_0_0) shapeCasts_S1x10240x128_S10240x128)
    (shapeCast S10240x128 (extractStridedSlice S1x10240x128 ![1, 0, 0] A slices_S2x10240x128_S1x10240x128_1_0_0) shapeCasts_S1x10240x128_S10240x128)

/-- The host's mean out of the two partial arrays: sums over counts floored at one, rows below 10000. -/
def midK (P Q : FVec Ideal S2x10240x128 .f32) : FVec Ideal S10000x128 .f32 :=
  extractStridedSlice S10000x128 ![0, 0]
    (Host.divf (partK P)
      (maximumf (broadcastInDim S10240x128 ![] bcast_S_S10240x128 (constant (F := Ideal) S_ .f32 0x3F800000#32)) (partK Q)))
    slices_S10240x128_S10000x128_0_0

/-- The sum of the two cores' blocks at row `n`, feature `d`: core 0's element plus core 1's. -/
theorem partK_apply (A : FVec Ideal S2x10240x128 .f32) (n : Fin 10240) (d : Fin 128) :
    partK A (ix2 n d) = A (ix3 0 n d) + A (ix3 1 n d) := by
  unfold partK
  refine (addf_apply _ _ _).trans ?_
  refine congrArg₂ (· + ·) ?_ ?_
  · refine (shapeCast_1ab_ab_apply _ _ n d).trans ?_
    exact extractStridedSlice_apply _ _ _ _ _ (fun ax => by
      match ax with
      | ⟨0, _⟩ => rfl
      | ⟨1, _⟩ => exact (Nat.zero_add _).symm
      | ⟨2, _⟩ => exact (Nat.zero_add _).symm)
  · refine (shapeCast_1ab_ab_apply _ _ n d).trans ?_
    exact extractStridedSlice_apply _ _ _ _ _ (fun ax => by
      match ax with
      | ⟨0, _⟩ => rfl
      | ⟨1, _⟩ => exact (Nat.zero_add _).symm
      | ⟨2, _⟩ => exact (Nat.zero_add _).symm)

/-- The host's mean is `kmean`: at node `a`, feature `d`, the two cores' sums added over the two cores' counts added,
    the count floored at the word the program carries. -/
theorem midK_eq (P Q : FVec Ideal S2x10240x128 .f32) : midK P Q = kmean P Q := by
  funext j
  rw [eq_ix2 j]
  unfold midK
  refine (slice2_axis0_apply 0 _ _ (j 0) (j 1) (up (j 0)) (by unfold up; exact (Nat.zero_add _).symm)).trans ?_
  refine (hostDivf_apply _ _ _).trans ?_
  unfold kmean
  refine congrArg₂ Ideal.div (partK_apply P _ _) ?_
  refine (maximumf_apply _ _ _).trans ?_
  refine congrArg₂ max ?_ (partK_apply Q _ _)
  exact (broadcastInDim_scalar_apply _ _ _).trans (constant_apply _ _)

-- twenty-two operations composed: each operation's result is read at its own buffer, every other buffer passed over
set_option maxHeartbeats 4000000 in
/-- The lines after the region, from any buffer contents `W`: the result buffer holds the common tail of the three
    arguments it reads and of the host's mean of the two result arrays. -/
theorem after_tail (W : Valuation τ sig (Elt Ideal)) :
    StableHlo.after (List.flatten [hostOps1, hostOps1_1, hostOps1_2]) W (Proc.devRef .tc main_v33)
      = tailK (W (Proc.devRef .tc main_arg0)) (midK (W (Proc.devRef .tc main_v14_0)) (W (Proc.devRef .tc main_v14_1)))
          (W (Proc.devRef .tc main_arg2)) (W (Proc.devRef .tc main_arg3)) := by
  simp only [hostOps1, hostOps1_1, hostOps1_2, List.flatten_cons, List.flatten_nil, List.append_nil, List.cons_append, List.nil_append]
  after_results
  rfl

/-- The common tail of equal operands. -/
theorem tailK_congr {a a' mn mn' : FVec Ideal S10000x128 .f32} {w w' : FVec Ideal S128x256 .f32} {b b' : FVec Ideal S128 .f32}
    (ha : a = a') (hm : mn = mn') (hw : w = w') (hb : b = b') : tailK a mn w b = tailK a' mn' w' b' := by
  subst ha hm hw hb; rfl

/-- The region's first result array: the per-core partial sums. -/
abbrev PP (c : Dev nD) : FVec Ideal S2x10240x128 .f32 :=
  fun y => psum (V m c main_v11) (V m c main_v12) (V m c main_v13) (y 0) (y 1) (y 2)
/-- and the partial counts. -/
abbrev QQ (c : Dev nD) : FVec Ideal S2x10240x128 .f32 :=
  fun y => pcnt (V m c main_v12) (y 0) (y 1)

/-- The first result array as the region leaves it. -/
theorem W_v14_0 (c : Dev nD) :
    Pipeline.withArrays (cfgs 0).spec c (V0 m c) (fun w => (dats m 0 c).arrAt w (cfgs 0).N) (Proc.devRef .tc main_v14_0) = PP m c :=
  (Pipeline.withArrays_arr spec0 launch0.win.arr_inj c _ _ 3).trans (Region.final3 m c)

/-- The second result array as the region leaves it. -/
theorem W_v14_1 (c : Dev nD) :
    Pipeline.withArrays (cfgs 0).spec c (V0 m c) (fun w => (dats m 0 c).arrAt w (cfgs 0).N) (Proc.devRef .tc main_v14_1) = QQ m c :=
  (Pipeline.withArrays_arr spec0 launch0.win.arr_inj c _ _ 4).trans (Region.final4 m c)

/-- No line before the region writes an argument and the region stages none of these three: each is as launched. -/
theorem W_arg0 (c : Dev nD) :
    Pipeline.withArrays (cfgs 0).spec c (V0 m c) (fun w => (dats m 0 c).arrAt w (cfgs 0).N) (Proc.devRef .tc main_arg0)
      = m ((c.tc : Thread nD τ).loc main_arg0) :=
  (Pipeline.withArrays_of_ne _ c (V0 m c) _ main_arg0 (by exact (by decide : ∀ w, Pipeline.arrRef spec0 w ≠ main_arg0))).trans (V_main_arg0 m c)

theorem W_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)

theorem W_arg3 (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans (V_main_arg3 m c)

/-- What the host lines after the region leave in the result buffer: the common tail of the argument arrays and the
    mean formed from the two cores' partial sums and counts. -/
theorem v33_term (c : Dev nD) :
    Pipeline.afterTail₀ cfgs (dats m) 0 (V0 m) [hostOps1, hostOps1_1, hostOps1_2] c main_v33
      = tailK (m ((c.tc : Thread nD τ).loc main_arg0)) (kmean (PP m c) (QQ m c))
          (m ((c.tc : Thread nD τ).loc main_arg2)) (m ((c.tc : Thread nD τ).loc main_arg3)) := by
  unfold Pipeline.afterTail₀
  exact (after_tail _).trans (tailK_congr (W_arg0 m c)
    ((congrArg₂ midK (W_v14_0 m c) (W_v14_1 m c)).trans (midK_eq _ _)) (W_arg2 m c) (W_arg3 m c))

/-- Every weakly fair execution of @main from zero counters terminates with the result buffer at the common tail of
    the arguments and of `kmean` of the partial sums and counts, and the four arguments as launched. -/
theorem run : θ_run defs (onTc (τ := τ) (main (F := Ideal))) ⟨m, fun _ => 0, ρ⟩ fun r => ∀ c : Dev nD,
      r.2.mem ((c.tc : Thread nD τ).loc main_v33)
        = tailK (m ((c.tc : Thread nD τ).loc main_arg0))
            (kmean (fun y => psum (V m c main_v11) (V m c main_v12) (V m c main_v13) (y 0) (y 1) (y 2)) (fun y => pcnt (V m c main_v12) (y 0) (y 1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v33 (Pipeline.mem_restRefs_of main_v33 (by decide) (by decide))).trans (v33_term m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostTail

end
-- ==== Proof.HostPrefix.lean ====
/-
  The host operations before the region, in closed form.

  Before its one kernel launch the program prepares three operands from its arguments: the source ids (row 0 of the
  id array) clamped into [0, 9999] and cut into chunks, the destination ids (row 1) guarded to [0, 10000) — an id
  outside goes to the padding node 10239 — and cut the same way, and the feature table padded from 10000 to 10240
  rows with zeros. This module states what each operand's buffer holds when the region is entered, as the
  specification's `chunkR`, `chunkC` and `padX` of the arguments as launched.

  Each proof has two halves. First, the buffer's contents after the host operations are the composition of the
  operations' functions over the arguments (every operation writes its own result buffer only). Second, that
  composition read at an index is the specification's value there: a reshape keeps row-major order, a slice shifts by
  its offset, a broadcast scalar is that scalar everywhere, the integer operations are pointwise, and the padding's
  fill — the float of the integer 0 — is 0 at the ideal instance.
-/
import proofs.«410679_j74045236183291_3_alg».proof.Proof.Gen.KernelIdeal.Frame
import proofs.«410679_j74045236183291_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostPrefix

open Idealize.ShloMosaic Idealize.ShloMosaic.TcCoe Idealize.SL.Sem Idealize.ShloMosaic.ValueIdx Cert.KernelIdeal Cert.KernelIdeal.Gen Cert.Sage

/-! ## Words: the signed clamp and the range guard

The host clamps a source id with a signed maximum against 0 and then a signed minimum against 9999, and keeps a
destination id when both signed comparisons `0 ≤ c` and `c < 10000` hold. Read as integers these are the clamp and the
guard of the specification. -/

/-- The signed maximum of 0 and `r`: `r` when `0 < r` (signed), else 0. The two ways of writing it differ only at
    `r = 0`, where both give 0. -/
theorem maxsi_zero (r : BitVec 32) : IntOp.maxsi 0#32 r = if (0#32).slt r then r else 0#32 := by
  unfold IntOp.maxsi
  by_cases h1 : r.slt 0#32 = true
  · have h2 : ¬ (0#32).slt r = true := by
      rw [BitVec.slt_iff_toInt_lt] at h1 ⊢; omega
    rw [if_pos h1, if_neg h2]
  · rw [if_neg h1]
    by_cases h2 : (0#32).slt r = true
    · rw [if_pos h2]
    · rw [if_neg h2]
      rw [BitVec.slt_iff_toInt_lt] at h1 h2
      exact BitVec.eq_of_toInt_eq (by omega)

/-- The host's clamp of a source id is the specification's. -/
theorem clip_word (r : BitVec 32) : IntOp.minsi 9999#32 (IntOp.maxsi 0#32 r) = clipW r := by
  rw [maxsi_zero]; rfl

/-- A conjunction of two decided bits is set exactly when both are. -/
theorem andi_ofBool_eq_one (p q : Bool) : IntOp.andi (BitVec.ofBool p) (BitVec.ofBool q) = 1#1 ↔ (p = true ∧ q = true) := by
  cases p <;> cases q <;> decide

/-- The host's guard of a destination id is the specification's. -/
theorem guard_word (c : BitVec 32) :
    Scalar.select (IntOp.andi (IntOp.cmpi .sge c 0#32) (IntOp.cmpi .slt c 10000#32)) c 10239#32 = padW c := by
  unfold Scalar.select padW
  by_cases h : (0#32).sle c = true ∧ c.slt 10000#32 = true
  · exact (if_pos ((andi_ofBool_eq_one ((0#32).sle c) (c.slt 10000#32)).2 h)).trans (if_pos h).symm
  · exact (if_neg (fun h' => h ((andi_ofBool_eq_one ((0#32).sle c) (c.slt 10000#32)).1 h'))).trans (if_neg h).symm

/-! ## The layout operations read at an index -/

section Reads
variable {α : Type}

/-- The flat array `[640000]` recast `[2, 250, 1, 1280]` reads, at chunk coordinates `(cc, i, 0, e)`, the flat edge
    number `(cc · 250 + i) · 1280 + e` (row-major order; the third axis has one coordinate). -/
theorem reshape_read (x : S640000.Idx → α) (h : S640000.ShapeCasts S2x250x1x1280) (j : S2x250x1x1280.Idx) :
    shapeCast S2x250x1x1280 x h j = x (ix1 (flatE (j 0) (j 1) (j 3))) :=
  shapeCast_apply x h j (ix1 (flatE (j 0) (j 1) (j 3))) (by
    rw [Shape.rowMajor_val_one, Shape.rowMajor_val_four]
    have h2 : (j 2).val < 1 := (j 2).isLt
    show ((j 0).val * 250 + (j 1).val) * 1280 + (j 3).val
      = (((j 0).val * 250 + (j 1).val) * 1 + (j 2).val) * 1280 + (j 3).val
    omega)

/-- Row `r` of the `[2, 640000]` id array, sliced out as `[1, 640000]` and flattened, reads the array at `(r, e)`. -/
theorem row_read (r : Nat) (hr : r < 2) (x : S2x640000.Idx → α) (hs : S2x640000.Slices ![r, 0] S1x640000)
    (hc : S1x640000.ShapeCasts S640000) (e : Fin 640000) :
    shapeCast S640000 (extractStridedSlice S1x640000 ![r, 0] x hs) hc (ix1 e) = x (ix2 ⟨r, hr⟩ e) := by
  refine (shapeCast_apply _ hc (ix1 e) (ix2 (0 : Fin 1) e) (by
    rw [Shape.rowMajor_val_two, Shape.rowMajor_val_one]
    show 0 * 640000 + e.val = e.val
    omega)).trans ?_
  exact extractStridedSlice_apply _ x hs _ (ix2 ⟨r, hr⟩ e) (fun a => match a with
    | ⟨0, _⟩ => by show r = r + 0; omega
    | ⟨1, _⟩ => by show e.val = 0 + e.val; omega)

end Reads

/-! ## The composed terms are the specification's arrays -/

/-- Row 0 flattened, clamped and recast is the chunked, clamped source-id array. -/
theorem clip_read (ei : IVec SEI 32) (hs : S2x640000.Slices ![0, 0] S1x640000) (hc : S1x640000.ShapeCasts S640000)
    (hb : S_.BroadcastsInDim S640000 (![] : Fin 0 → Fin S640000.rank)) (hr : S640000.ShapeCasts S2x250x1x1280) :
    shapeCast S2x250x1x1280
        (minsi (broadcastInDim S640000 ![] hb (constantI S_ 32 9999#32))
          (maxsi (broadcastInDim S640000 ![] hb (constantI S_ 32 0#32))
            (shapeCast S640000 (extractStridedSlice S1x640000 ![0, 0] ei hs) hc)))
        hr = chunkR ei := by
  funext j
  refine (reshape_read _ hr j).trans ?_
  -- the clamp is pointwise and a broadcast scalar is that scalar at every index
  have e := row_read 0 (by omega) ei hs hc (flatE (j 0) (j 1) (j 3))
  exact (congrArg (fun w => IntOp.minsi 9999#32 (IntOp.maxsi 0#32 w)) e).trans (clip_word _)

/-- Row 1 flattened, guarded and recast is the chunked, guarded destination-id array. -/
theorem guard_read (ei : IVec SEI 32) (hs : S2x640000.Slices ![1, 0] S1x640000) (hc : S1x640000.ShapeCasts S640000)
    (hb : S_.BroadcastsInDim S640000 (![] : Fin 0 → Fin S640000.rank)) (hr : S640000.ShapeCasts S2x250x1x1280) :
    shapeCast S2x250x1x1280
        (select
          (andi
            (cmpi .sge (shapeCast S640000 (extractStridedSlice S1x640000 ![1, 0] ei hs) hc)
              (broadcastInDim S640000 ![] hb (constantI S_ 32 0#32)))
            (cmpi .slt (shapeCast S640000 (extractStridedSlice S1x640000 ![1, 0] ei hs) hc)
              (broadcastInDim S640000 ![] hb (constantI S_ 32 10000#32))))
          (shapeCast S640000 (extractStridedSlice S1x640000 ![1, 0] ei hs) hc)
          (broadcastInDim S640000 ![] hb (constantI S_ 32 10239#32)))
        hr = chunkC ei := by
  funext j
  refine (reshape_read _ hr j).trans ?_
  -- the comparisons, the conjunction and the select are pointwise
  have e := row_read 1 (by omega) ei hs hc (flatE (j 0) (j 1) (j 3))
  exact (congrArg (fun w => Scalar.select (IntOp.andi (IntOp.cmpi .sge w 0#32) (IntOp.cmpi .slt w 10000#32)) w 10239#32) e).trans
    (guard_word _)

/-- The table padded with 240 rows of the float of the integer 0 is the specification's padded table: a row below
    10000 is the table's row, a row from 10000 on is 0 (at the ideal instance the float of an integer is its value). -/
theorem pad_read (x : FVec Ideal SX .f32) (hp : S10000x128.Pads (![0, 0] : Fin 2 → Nat) ![240, 0] ![0, 0] S10240x128)
    (hu : 0 < S_.numel) :
    pad S10240x128 ![0, 0] ![240, 0] ![0, 0] x (sitofp (F := Ideal) .f32 (constantI S_ 32 0#32)) hp hu = padX x := by
  funext j
  have h1 : (j 1).val < 128 := (j 1).isLt
  unfold pad
  split
  · next hin =>
    have h0 : ((j 0).val - 0) / (0 + 1) < 10000 := (hin ⟨0, Nat.zero_lt_two⟩).2.2
    have hlt : (j 0).val < 10000 := by omega
    unfold padX
    rw [dif_pos hlt]
    refine congrArg x (funext fun a => Fin.ext ?_)
    match a with
    | ⟨0, _⟩ => show ((j 0).val - 0) / (0 + 1) = (j 0).val; omega
    | ⟨1, _⟩ => show ((j 1).val - 0) / (0 + 1) = (j 1).val; omega
  · next hin =>
    have hlt : ¬ (j 0).val < 10000 := fun hlt => hin (fun a => match a with
      | ⟨0, _⟩ => ⟨Nat.zero_le _, by show ((j 0).val - 0) % (0 + 1) = 0; omega,
          by show ((j 0).val - 0) / (0 + 1) < 10000; omega⟩
      | ⟨1, _⟩ => ⟨Nat.zero_le _, by show ((j 1).val - 0) % (0 + 1) = 0; omega,
          by show ((j 1).val - 0) / (0 + 1) < 128; omega⟩)
    unfold padX
    rw [dif_neg hlt]
    show (((0#32 : BitVec 32).toInt : ℝ) : EReal) = 0
    rw [BitVec.toInt_zero, Int.cast_zero, EReal.coe_zero]

/-! ## The operands as the host operations compose them

Each of the three operands the region reads is written once before the region; what its buffer holds then is the
composition of the host operations' functions over the two arguments, which no host operation writes. -/

variable (m : (ℓ : Loc nD τ sig) → Buf (Elt Ideal) ℓ)

/-- The chunked source ids: row 0 of the id array flattened, clamped below by 0 and above by 9999, recast. -/
theorem V_v11_term (c : Dev nD) : (V m c main_v11 : IVec S2x250x1x1280 32)
    = shapeCast S2x250x1x1280
        (minsi (broadcastInDim S640000 ![] bcast_S_S640000 (constantI S_ 32 9999#32))
          (maxsi (broadcastInDim S640000 ![] bcast_S_S640000 (constantI S_ 32 0#32))
            (shapeCast S640000
              (extractStridedSlice S1x640000 ![0, 0] (m ((c : Thread nD τ).loc main_arg1)) slices_S2x640000_S1x640000_0_0)
              shapeCasts_S1x640000_S640000)))
        shapeCasts_S640000_S2x250x1x1280 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-- The chunked destination ids: row 1 of the id array flattened, kept where `0 ≤ c` and `c < 10000` (signed), else
    10239, recast. -/
theorem V_v12_term (c : Dev nD) : (V m c main_v12 : IVec S2x250x1x1280 32)
    = shapeCast S2x250x1x1280
        (select
          (andi
            (cmpi .sge
              (shapeCast S640000
                (extractStridedSlice S1x640000 ![1, 0] (m ((c : Thread nD τ).loc main_arg1)) slices_S2x640000_S1x640000_1_0)
                shapeCasts_S1x640000_S640000)
              (broadcastInDim S640000 ![] bcast_S_S640000 (constantI S_ 32 0#32)))
            (cmpi .slt
              (shapeCast S640000
                (extractStridedSlice S1x640000 ![1, 0] (m ((c : Thread nD τ).loc main_arg1)) slices_S2x640000_S1x640000_1_0)
                shapeCasts_S1x640000_S640000)
              (broadcastInDim S640000 ![] bcast_S_S640000 (constantI S_ 32 10000#32))))
          (shapeCast S640000
            (extractStridedSlice S1x640000 ![1, 0] (m ((c : Thread nD τ).loc main_arg1)) slices_S2x640000_S1x640000_1_0)
            shapeCasts_S1x640000_S640000)
          (broadcastInDim S640000 ![] bcast_S_S640000 (constantI S_ 32 10239#32)))
        shapeCasts_S640000_S2x250x1x1280 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- The padded table: the feature table with 240 rows of the float of the integer 0 appended. -/
theorem V_v13_term (c : Dev nD) : (V m c main_v13 : FVec Ideal S10240x128 .f32)
    = pad S10240x128 ![0, 0] ![240, 0] ![0, 0] (m ((c : Thread nD τ).loc main_arg0))
        (sitofp (F := Ideal) .f32 (constantI S_ 32 0#32)) pads_S10000x128_S10240x128_02400_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-! ## The three operands as the region finds them -/

/-- The chunked, clamped source ids. -/
theorem V_v11 (c : Dev nD) : (V m c main_v11 : IVec S2x250x1x1280 32) = chunkR (m ((c : Thread nD τ).loc main_arg1)) :=
  (V_v11_term m c).trans (clip_read _ _ _ _ _)

/-- The chunked, guarded destination ids. -/
theorem V_v12 (c : Dev nD) : (V m c main_v12 : IVec S2x250x1x1280 32) = chunkC (m ((c : Thread nD τ).loc main_arg1)) :=
  (V_v12_term m c).trans (guard_read _ _ _ _ _)

/-- The padded feature table. -/
theorem V_v13 (c : Dev nD) : (V m c main_v13 : FVec Ideal S10240x128 .f32) = padX (m ((c : Thread nD τ).loc main_arg0)) :=
  (V_v13_term m c).trans (pad_read _ _ _)

end Cert.KernelIdeal.HostPrefix

end
-- ==== Proof.RefSide.lean ====
/-
  The reference program's aggregated mean is the specification's mean.

  The reference forms, for every node `n` and feature `d`, the sum of the source rows of the edges whose destination
  id is `n` (a gather of the source rows followed by an accumulating scatter along the destination ids), the number of
  such edges (an accumulating scatter of ones), and divides the first by the second raised to at least one. The four
  operations the generated reading leaves unread are read here at an index:
    * the gather reads the table at the start index, read signed and clamped into `[0, 9999]`;
    * an update of an accumulating scatter lands on the operand element whose coordinates are the start index (read
      signed, not clamped) plus the window coordinate, and is dropped when that leaves the operand;
    * so the scatter's element is the operand's plus the sum of the updates landing on it.
  A source id that is not negative passes the reference's wrap-around of negative ids unchanged, which is why the
  statement asks for it. The rest of the program (concatenate, contraction with the transposed weight, bias) is kept
  closed as `tailR`.
-/
import proofs.«410679_j74045236183291_3_alg».proof.Proof.Gen.ReferenceIdeal.Read
import proofs.«410679_j74045236183291_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## Words and index sets -/

/-- The f32 word `0x3F800000` (sign 0, exponent 127, fraction 0) denotes `2^23 · 2^(127 - 127 - 23) = 1`. -/
theorem ofBits_one_f32 : Ideal.ofBits .f32 0x3F800000#32 = 1 := by
  simp [Ideal.ofBits, Ideal.ieee]
  norm_cast
  norm_num

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## An accumulating scatter read at an index -/

/-- An update lands on operand index `i` exactly when, on every operand axis, start plus window coordinate is `i`'s
    coordinate: the range conditions of the landing index are then those of `i` itself. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have := Option.some.inj he
      subst this
      show _ = (((d.start j idx a + (d.window j a : Int)).toNat : Nat) : Int)
      rw [Int.toNat_of_nonneg (h a).1]
    · intro hall
      congr 1
      funext a
      refine Fin.ext ?_
      show (d.start j idx a + (d.window j a : Int)).toNat = (i a).val
      rw [hall a]; rfl
  · rename_i h
    constructor
    · intro he; cases he
    · intro hall
      exfalso; apply h
      intro a
      rw [hall a]
      exact ⟨Int.natCast_nonneg _, by exact_mod_cast (i a).isLt⟩

/-- The accumulating scatter at the ideal values, read at `i`: the operand there plus the sum of the updates that
    land on `i`, the landing condition named by any decidable predicate `p` equivalent to it. -/
theorem scatterAdd_apply {s si u : Shape} (d : ScatterDims s si u) {w : Nat} (x : FVec Ideal s .f32) (idx : IVec si w)
    (upd : FVec Ideal u .f32) (i : s.Idx) (p : u.Idx → Prop) [DecidablePred p]
    (hp : ∀ j, d.resultIdx? j idx = some i ↔ p j) :
    Host.scatterAdd (F := Ideal) d x idx upd i = x i + ∑ j, if p j then upd j else 0 := by
  unfold Host.scatterAdd
  rw [Ideal.hostScatterAdd_def]
  unfold Ideal.hostScatterAdd
  show x i + _ = _
  congr 1
  rw [Finset.sum_filter]
  refine Finset.sum_congr rfl fun j _ => ?_
  by_cases h : p j
  · rw [if_pos h, if_pos ((hp j).2 h)]
  · rw [if_neg h, if_neg (fun h' => h ((hp j).1 h'))]

/-! ## The gather of the source rows -/

/-- Result element `(e, d)` of the gather is the table's row at the start index `idx[e, 0]`, read signed and clamped
    into `[0, 9999]`, feature `d`: axis 0 is collapsed and carries the clamped start, axis 1 is the offset axis and
    carries `d`. -/
theorem gather_apply {α : Type} {w : Nat} (x : S10000x128.Idx → α) (idx : IVec S640000x1 w) (e : Fin 640000) (d : Fin 128) :
    Host.gather gather_S10000x128_S640000x1_S640000x128_1_0_n_n_0_1_1128 x idx (ix2 e d)
      = x (ix2 ⟨min (idx (ix2 e 0)).toInt.toNat 9999, by omega⟩ d) := by
  unfold Host.gather
  congr 1
  funext a
  refine Fin.ext ?_
  match a with
  | ⟨0, _⟩ =>
    show gather_S10000x128_S640000x1_S640000x128_1_0_n_n_0_1_1128.start (ix2 e d) idx 0
      + gather_S10000x128_S640000x1_S640000x128_1_0_n_n_0_1_1128.batchCoord (ix2 e d) 0
      + gather_S10000x128_S640000x1_S640000x128_1_0_n_n_0_1_1128.offCoord (ix2 e d) 0 = _
    rw [GatherDims.batchCoord_eq_zero _ _ _ (by decide), GatherDims.offCoord_eq_zero _ _ _ (by decide)]
    simp only [Nat.add_zero]
    unfold GatherDims.start
    rw [dif_pos (show (0 : Fin S10000x128.rank) ∈ gather_S10000x128_S640000x1_S640000x128_1_0_n_n_0_1_1128.startIndexMap by decide)]
    have hsi : gather_S10000x128_S640000x1_S640000x128_1_0_n_n_0_1_1128.siIdx (ix2 e d)
        ⟨List.idxOf (0 : Fin S10000x128.rank) gather_S10000x128_S640000x1_S640000x128_1_0_n_n_0_1_1128.startIndexMap,
          List.idxOf_lt_length_iff.2 (by decide)⟩ = ix2 e 0 := by
      funext b; refine Fin.ext ?_
      match b with
      | ⟨0, _⟩ => rfl
      | ⟨1, _⟩ => rfl
    rw [hsi]
    rfl
  | ⟨1, _⟩ =>
    show gather_S10000x128_S640000x1_S640000x128_1_0_n_n_0_1_1128.start (ix2 e d) idx 1
      + gather_S10000x128_S640000x1_S640000x128_1_0_n_n_0_1_1128.batchCoord (ix2 e d) 1
      + gather_S10000x128_S640000x1_S640000x128_1_0_n_n_0_1_1128.offCoord (ix2 e d) 1 = _
    rw [GatherDims.batchCoord_eq_zero _ _ _ (by decide)]
    unfold GatherDims.start GatherDims.offCoord
    rw [dif_neg (show ¬ (1 : Fin S10000x128.rank) ∈ gather_S10000x128_S640000x1_S640000x128_1_0_n_n_0_1_1128.startIndexMap by decide),
      dif_pos (show (1 : Fin S10000x128.rank) ∈ gather_S10000x128_S640000x1_S640000x128_1_0_n_n_0_1_1128.sKept by decide)]
    simp only [Nat.add_zero, Nat.zero_add]
    rfl

/-! ## Where an update of each scatter lands -/

/-- The count's scatter: update `e` has start `idx[e, 0]` (signed) on the one operand axis and no window. -/
theorem sc1_at0 {w : Nat} (e : Fin 640000) (idx : IVec S640000x1 w) :
    scatter_S10000_S640000x1_S640000_n_0_0_1.start (ix1 e) idx 0
      + (scatter_S10000_S640000x1_S640000_n_0_0_1.window (ix1 e) 0 : Int) = (idx (ix2 e 0)).toInt := by
  unfold ScatterDims.start ScatterDims.window
  rw [dif_pos (show (0 : Fin S10000.rank) ∈ scatter_S10000_S640000x1_S640000_n_0_0_1.scatterDimsToOperandDims by decide),
    dif_neg (show ¬ (0 : Fin S10000.rank) ∈ scatter_S10000_S640000x1_S640000_n_0_0_1.sKept by decide)]
  have hsi : scatter_S10000_S640000x1_S640000_n_0_0_1.siIdx (ix1 e)
      ⟨List.idxOf (0 : Fin S10000.rank) scatter_S10000_S640000x1_S640000_n_0_0_1.scatterDimsToOperandDims,
        List.idxOf_lt_length_iff.2 (by decide)⟩ = ix2 e 0 := by
    funext b; refine Fin.ext ?_
    match b with
    | ⟨0, _⟩ => rfl
    | ⟨1, _⟩ => rfl
  rw [hsi, Nat.cast_zero, add_zero]

/-- Update `e` of the count's scatter lands on node `n` exactly when `idx[e, 0]`, read signed, is `n`. -/
theorem sc1_hit {w : Nat} (e : Fin 640000) (idx : IVec S640000x1 w) (n : Fin 10000) :
    scatter_S10000_S640000x1_S640000_n_0_0_1.resultIdx? (ix1 e) idx = some (ix1 n)
      ↔ (idx (ix2 e 0)).toInt = (n.val : Int) := by
  rw [resultIdx?_eq_some_iff]
  constructor
  · intro h
    exact (sc1_at0 e idx).symm.trans (h 0)
  · intro h a
    obtain rfl : a = 0 := Subsingleton.elim _ _
    exact (sc1_at0 e idx).trans h

/-- The sum's scatter, node axis: update `(e, b)` has start `idx[e, 0]` (signed) and no window there. -/
theorem sc2_at0 {w : Nat} (e : Fin 640000) (b : Fin 128) (idx : IVec S640000x1 w) :
    scatter_S10000x128_S640000x1_S640000x128_1_0_0_1.start (ix2 e b) idx 0
      + (scatter_S10000x128_S640000x1_S640000x128_1_0_0_1.window (ix2 e b) 0 : Int) = (idx (ix2 e 0)).toInt := by
  unfold ScatterDims.start ScatterDims.window
  rw [dif_pos (show (0 : Fin S10000x128.rank) ∈ scatter_S10000x128_S640000x1_S640000x128_1_0_0_1.scatterDimsToOperandDims by decide),
    dif_neg (show ¬ (0 : Fin S10000x128.rank) ∈ scatter_S10000x128_S640000x1_S640000x128_1_0_0_1.sKept by decide)]
  have hsi : scatter_S10000x128_S640000x1_S640000x128_1_0_0_1.siIdx (ix2 e b)
      ⟨List.idxOf (0 : Fin S10000x128.rank) scatter_S10000x128_S640000x1_S640000x128_1_0_0_1.scatterDimsToOperandDims,
        List.idxOf_lt_length_iff.2 (by decide)⟩ = ix2 e 0 := by
    funext c; refine Fin.ext ?_
    match c with
    | ⟨0, _⟩ => rfl
    | ⟨1, _⟩ => rfl
  rw [hsi, Nat.cast_zero, add_zero]

/-- The sum's scatter, feature axis: no start, the window coordinate is the update's feature `b`. -/
theorem sc2_at1 {w : Nat} (e : Fin 640000) (b : Fin 128) (idx : IVec S640000x1 w) :
    scatter_S10000x128_S640000x1_S640000x128_1_0_0_1.start (ix2 e b) idx 1
      + (scatter_S10000x128_S640000x1_S640000x128_1_0_0_1.window (ix2 e b) 1 : Int) = (b.val : Int) := by
  unfold ScatterDims.start ScatterDims.window
  rw [dif_neg (show ¬ (1 : Fin S10000x128.rank) ∈ scatter_S10000x128_S640000x1_S640000x128_1_0_0_1.scatterDimsToOperandDims by decide),
    dif_pos (show (1 : Fin S10000x128.rank) ∈ scatter_S10000x128_S640000x1_S640000x128_1_0_0_1.sKept by decide), zero_add]
  rfl

/-- Update `(e, b)` of the sum's scatter lands on `(n, d)` exactly when `idx[e, 0]`, read signed, is `n` and `b = d`. -/
theorem sc2_hit {w : Nat} (e : Fin 640000) (b : Fin 128) (idx : IVec S640000x1 w) (n : Fin 10000) (d : Fin 128) :
    scatter_S10000x128_S640000x1_S640000x128_1_0_0_1.resultIdx? (ix2 e b) idx = some (ix2 n d)
      ↔ (idx (ix2 e 0)).toInt = (n.val : Int) ∧ b = d := by
  rw [resultIdx?_eq_some_iff]
  constructor
  · intro h
    refine ⟨(sc2_at0 e b idx).symm.trans (h 0), Fin.ext ?_⟩
    have h1 := (sc2_at1 e b idx).symm.trans (h 1)
    exact Int.ofNat_inj.1 h1
  · rintro ⟨h0, h1⟩ a
    match a with
    | ⟨0, _⟩ => exact (sc2_at0 e b idx).trans h0
    | ⟨1, _⟩ => exact (sc2_at1 e b idx).trans (by rw [h1])

/-! ## The id arrays the reference prepares -/

/-- The flattened first row of the edge list at `e` is edge `e`'s source id. -/
theorem v1_at (x1 : IVec S2x640000 32) (e : Fin 640000) :
    val_main_v1 (F := Ideal) x1 (ix1 e) = Cert.Sage.rowOf x1 e := by
  rw [val_main_v1_apply, val_main_v0_apply]
  unfold Cert.Sage.rowOf
  congr 1
  funext a
  match a with
  | ⟨0, _⟩ => rfl
  | ⟨1, _⟩ => exact Fin.ext (Nat.mod_eq_of_lt e.isLt)

/-- The flattened second row at `e` is edge `e`'s destination id. -/
theorem v3_at (x1 : IVec S2x640000 32) (e : Fin 640000) :
    val_main_v3 (F := Ideal) x1 (ix1 e) = Cert.Sage.colOf x1 e := by
  rw [val_main_v3_apply, val_main_v2_apply]
  unfold Cert.Sage.colOf
  congr 1
  funext a
  match a with
  | ⟨0, _⟩ => rfl
  | ⟨1, _⟩ => exact Fin.ext (Nat.mod_eq_of_lt e.isLt)

/-- The count's scatter indices at `[e, 0]`: the destination id. -/
theorem v16_at (x1 : IVec S2x640000 32) (e : Fin 640000) :
    val_main_v16 (F := Ideal) x1 (ix2 e 0) = Cert.Sage.colOf x1 e := by
  rw [val_main_v16_apply, ← v3_at]
  congr 1
  funext a
  match a with
  | ⟨0, _⟩ => rfl

/-- The sum's scatter indices at `[e, 0]`: the destination id. -/
theorem v12_at (x1 : IVec S2x640000 32) (e : Fin 640000) :
    val_main_v12 (F := Ideal) x1 (ix2 e 0) = Cert.Sage.colOf x1 e := by
  rw [val_main_v12_apply, ← v3_at]
  congr 1
  funext a
  match a with
  | ⟨0, _⟩ => rfl

/-- The gather's start indices at `[e, 0]`: the source id with 10000 added when it is negative; a source id that is
    not negative fails the signed comparison with zero and is kept as it is. -/
theorem v9_at (x1 : IVec S2x640000 32) (e : Fin 640000) (hrow : 0 ≤ (Cert.Sage.rowOf x1 e).toInt) :
    val_main_v9 (F := Ideal) x1 (ix2 e 0) = Cert.Sage.rowOf x1 e := by
  have hi : idx_main_v9 (ix2 e (0 : Fin 1)) = ix1 e := by
    funext a
    match a with
    | ⟨0, _⟩ => rfl
  rw [val_main_v9_apply, hi, val_main_v8_apply, val_main_v5_apply, v1_at, val_main_v4_apply, val_main_c_apply]
  have hc : IntOp.cmpi .slt (Cert.Sage.rowOf x1 e) 0#32 = 0#1 := by
    unfold IntOp.cmpi
    have : (Cert.Sage.rowOf x1 e).slt 0#32 = false := by
      rw [BitVec.slt]
      exact decide_eq_false (by rw [BitVec.toInt_zero]; omega)
    simp only [this]
    rfl
  rw [hc, select_zero]

/-! ## The unread stages at an index -/

/-- The gathered rows: edge `e`'s row is the table's row `srcRow e`. -/
theorem v10_at (x0 : FVec Ideal S10000x128 .f32) (x1 : IVec S2x640000 32) (e : Fin 640000) (d : Fin 128)
    (hrow : 0 ≤ (Cert.Sage.rowOf x1 e).toInt) :
    val_main_v10 (F := Ideal) x0 x1 (ix2 e d) = x0 (ix2 (Cert.Sage.srcRow x1 e) d) := by
  unfold val_main_v10
  rw [gather_apply]
  have hs : (⟨min (val_main_v9 (F := Ideal) x1 (ix2 e 0)).toInt.toNat 9999, by omega⟩ : Fin 10000)
      = Cert.Sage.srcRow x1 e := by
    unfold Cert.Sage.srcRow
    exact Fin.ext (congrArg (fun r : BitVec 32 => min r.toInt.toNat 9999) (v9_at x1 e hrow))
  rw [hs]

/-- The two zero-filled operands and the updates of ones. -/
theorem v15_at (i : S10000.Idx) : val_main_v15 (F := Ideal) i = 0 := by
  rw [val_main_v15_apply, val_main_cst_2_apply]; exact Ideal.ofBits_zero_f32
theorem v11_at (i : S10000x128.Idx) : val_main_v11 (F := Ideal) i = 0 := by
  rw [val_main_v11_apply, val_main_cst_apply]; exact Ideal.ofBits_zero_f32
theorem v14_at (i : S640000.Idx) : val_main_v14 (F := Ideal) i = 1 := by
  rw [val_main_v14_apply, val_main_cst_1_apply]; exact ofBits_one_f32

/-- The scattered ones at node `n`: zero plus one for every edge landing on `n`, the count. -/
theorem v17_at (x1 : IVec S2x640000 32) (n : Fin 10000) :
    val_main_v17 (F := Ideal) x1 (ix1 n) = Cert.Sage.cnt x1 n := by
  unfold val_main_v17
  rw [scatterAdd_apply _ _ _ _ (ix1 n) (fun j => Cert.Sage.hits x1 (j 0) n)
    (fun j => by
      obtain ⟨e, rfl⟩ : ∃ e, j = ix1 e := ⟨j 0, eq_ix1 j⟩
      rw [sc1_hit, v16_at]; rfl)]
  rw [v15_at, zero_add, sum_idx1]
  unfold Cert.Sage.cnt
  refine Finset.sum_congr rfl fun e _ => ?_
  rw [v14_at]

/-- The scattered rows at `(n, d)`: zero plus, over the updates `(e, b)`, those with `e` landing on `n` and `b = d`;
    the inner sum over `b` keeps the one term `b = d`, leaving the sum of the source rows' feature `d`. -/
theorem v13_at (x0 : FVec Ideal S10000x128 .f32) (x1 : IVec S2x640000 32)
    (hrow : ∀ e : Fin 640000, 0 ≤ (Cert.Sage.rowOf x1 e).toInt) (n : Fin 10000) (d : Fin 128) :
    val_main_v13 (F := Ideal) x0 x1 (ix2 n d) = Cert.Sage.nsum x0 x1 n d := by
  unfold val_main_v13
  rw [scatterAdd_apply _ _ _ _ (ix2 n d) (fun j => Cert.Sage.hits x1 (j 0) n ∧ j 1 = d)
    (fun j => by
      obtain ⟨e, b, rfl⟩ : ∃ e b, j = ix2 e b := ⟨j 0, j 1, eq_ix2 j⟩
      rw [sc2_hit, v12_at]; rfl)]
  rw [v11_at, zero_add, sum_idx2]
  unfold Cert.Sage.nsum
  refine Finset.sum_congr rfl fun e _ => ?_
  show (∑ b : Fin 128, if Cert.Sage.hits x1 e n ∧ b = d then val_main_v10 (F := Ideal) x0 x1 (ix2 e b) else 0) = _
  by_cases h : Cert.Sage.hits x1 e n
  · rw [if_pos h]
    simp only [h, true_and]
    rw [Finset.sum_ite_eq' Finset.univ d, if_pos (Finset.mem_univ _), v10_at x0 x1 e d (hrow e)]
  · rw [if_neg h]
    simp only [h, false_and, if_false, Finset.sum_const_zero]

/-- The divisor at `(n, d)`: the count at `n` raised to at least the word for one. -/
theorem v20_at (x1 : IVec S2x640000 32) (n : Fin 10000) (d : Fin 128) :
    val_main_v20 (F := Ideal) x1 (ix2 n d) = max Cert.Sage.one32 (Cert.Sage.cnt x1 n) := by
  have hi : idx_main_v19 (idx_main_v20 (ix2 n d)) = ix1 n := by
    funext a
    match a with
    | ⟨0, _⟩ => rfl
  rw [val_main_v20_apply, val_main_v19_apply, hi, val_main_v18_apply, v17_at, val_main_call0_v1_apply,
    val_main_call0_v0_apply, val_main_cst_3_apply]
  rfl

/-! ## The mean, and the whole result -/

/-- The reference's quotient of the scattered sums by the raised counts is the specification's mean, when no source id
    is negative. -/
theorem v21_eq_mean (x0 : FVec Ideal S10000x128 .f32) (x1 : IVec S2x640000 32)
    (hrow : ∀ e : Fin 640000, 0 ≤ (Cert.Sage.rowOf x1 e).toInt) :
    val_main_v21 (F := Ideal) x0 x1 = Cert.Sage.mean x0 x1 := by
  funext j
  obtain ⟨n, d, rfl⟩ : ∃ n d, j = ix2 n d := ⟨j 0, j 1, eq_ix2 j⟩
  rw [val_main_v21_apply, v13_at x0 x1 hrow, v20_at]
  rfl

/-- What the reference does with the node features `a` and an aggregated array `mn`: joins them along the feature
    axis, contracts with the transposed weight and adds the bias along the rows. Kept closed. -/
def tailR (a mn : FVec Ideal S10000x128 .f32) (w : FVec Ideal S128x256 .f32) (b : FVec Ideal S128 .f32) :
    FVec Ideal S10000x128 .f32 :=
  addf (Host.dotGeneral (F := Ideal) dot_S10000x256_S256x128_S10000x128_1_0_0_1_n_n none
      (concatenate S10000x256 1 [⟨S10000x128, a⟩, ⟨S10000x128, mn⟩] concatenates_S10000x128_S10000x128_S10000x256_d1)
      (transpose S256x128 [1, 0] w transposes_S128x256_S256x128_1_0))
    (broadcastInDim S10000x128 ![0, 1] bcast_S1x128_S10000x128_0_1 (broadcastInDim S1x128 ![1] bcast_S128_S1x128_1 b))

/-- The reference's result is that tail at its own quotient stage. -/
theorem v27_eq_tail (x0 : FVec Ideal S10000x128 .f32) (x1 : IVec S2x640000 32) (x2 : FVec Ideal S128x256 .f32)
    (x3 : FVec Ideal S128 .f32) :
    val_main_v27 (F := Ideal) x0 x1 x2 x3 = tailR x0 (val_main_v21 (F := Ideal) x0 x1) x2 x3 := rfl

/-- The reference's result is the tail at the specification's mean. -/
theorem ref_eq (x0 : FVec Ideal S10000x128 .f32) (x1 : IVec S2x640000 32) (x2 : FVec Ideal S128x256 .f32)
    (x3 : FVec Ideal S128 .f32) (hrow : ∀ e : Fin 640000, 0 ≤ (Cert.Sage.rowOf x1 e).toInt) :
    val_main_v27 (F := Ideal) x0 x1 x2 x3 = tailR x0 (Cert.Sage.mean x0 x1) x2 x3 := by
  rw [v27_eq_tail, v21_eq_mean x0 x1 hrow]

end Cert.ReferenceIdeal.RefValue

end
-- ==== Proof.Algebra.lean ====
/-
  The algebra that identifies the kernel's tiled indicator sums with the graph's edge sums.

  Three facts carry everything. A clamped source word, read as a natural number, is the clamped signed id, so the
  indicator selection of a padded table at that word is the table's row at the clamped id. A guarded destination word
  equals a node's number exactly when the destination id, read signed, is that node. And the chunk coordinates
  (core, chunk, lane) enumerate the edges once each in row-major order, so the triple sum over them is the sum over the
  edges. Extended reals are a commutative monoid with zero under multiplication and an additive commutative monoid;
  nothing more is used.
-/
import proofs.«410679_j74045236183291_3_alg».proof.Proof.Spec
import Mathlib.Algebra.BigOperators.Fin
import Mathlib.Data.Fintype.BigOperators

noncomputable section

namespace Cert.Sage

open Idealize.ShloMosaic Idealize.ShloMosaic.ValueIdx

/-! ## Words read signed -/

/-- A 32-bit word read signed, in terms of its unsigned reading. -/
theorem toInt_cases (r : BitVec 32) :
    (r.toNat < 2147483648 ∧ r.toInt = (r.toNat : Int)) ∨
    (2147483648 ≤ r.toNat ∧ r.toInt = (r.toNat : Int) - 4294967296) := by
  have h := BitVec.toInt_eq_toNat_cond r
  have hl := r.isLt
  by_cases hc : 2 * r.toNat < 2 ^ 32
  · rw [if_pos hc] at h; left; constructor <;> omega
  · rw [if_neg hc] at h; right; constructor
    · omega
    · rw [h]; push_cast; omega

/-- The signed clamp into the interval from 0 to 9999, read as a natural number. -/
theorem clipW_toNat (r : BitVec 32) : (clipW r).toNat = min r.toInt.toNat 9999 := by
  have h0 : (0#32).toInt = 0 := by decide
  have h9 : (9999#32).toInt = 9999 := by decide
  have h9n : (9999#32).toNat = 9999 := by decide
  have h0n : (0#32).toNat = 0 := by decide
  unfold clipW
  by_cases hp : (0#32).slt r = true
  · have hp' : (0 : Int) < r.toInt := by
      have := (BitVec.slt_iff_toInt_lt).mp hp; rw [h0] at this; exact this
    rw [if_pos hp]
    by_cases hq : (9999#32).slt r = true
    · have hq' : (9999 : Int) < r.toInt := by
        have := (BitVec.slt_iff_toInt_lt).mp hq; rw [h9] at this; exact this
      rw [if_pos hq, h9n]; omega
    · have hq' : ¬ (9999 : Int) < r.toInt := by
        intro hh; apply hq; apply (BitVec.slt_iff_toInt_lt).mpr; rw [h9]; exact hh
      rw [if_neg hq]
      rcases toInt_cases r with ⟨_, h⟩ | ⟨_, h⟩ <;> omega
  · have hp' : ¬ (0 : Int) < r.toInt := by
      intro hh; apply hp; apply (BitVec.slt_iff_toInt_lt).mpr; rw [h0]; exact hh
    rw [if_neg hp]
    have hz : ¬ ((9999#32).slt 0#32 = true) := by decide
    rw [if_neg hz, h0n]; omega

theorem clipW_lt (r : BitVec 32) : (clipW r).toNat < 10000 := by
  rw [clipW_toNat]; omega

/-- A node's number is the guarded destination word exactly when the destination id, read signed, is that node. -/
theorem oh_padW (c : BitVec 32) (n : Fin 10000) :
    (BitVec.ofNat 32 (up n).val = padW c) ↔ c.toInt = (n.val : Int) := by
  have hn := n.isLt
  have hup : (up n).val = n.val := rfl
  have h0 : (0#32).toInt = 0 := by decide
  have h1 : (10000#32).toInt = 10000 := by decide
  have hofn : (BitVec.ofNat 32 n.val).toNat = n.val := by
    rw [BitVec.toNat_ofNat]; exact Nat.mod_eq_of_lt (by omega)
  rw [hup]
  unfold padW
  by_cases hg : (0#32).sle c = true ∧ c.slt 10000#32 = true
  · rw [if_pos hg]
    obtain ⟨ha, hb⟩ := hg
    have ha' : (0 : Int) ≤ c.toInt := by
      have := (BitVec.sle_iff_toInt_le).mp ha; rw [h0] at this; exact this
    have hb' : c.toInt < 10000 := by
      have := (BitVec.slt_iff_toInt_lt).mp hb; rw [h1] at this; exact this
    constructor
    · intro h
      have : n.val = c.toNat := by rw [← h]; exact hofn.symm
      rcases toInt_cases c with ⟨_, hc⟩ | ⟨_, hc⟩ <;> omega
    · intro h
      apply BitVec.eq_of_toNat_eq
      rw [hofn]
      rcases toInt_cases c with ⟨_, hc⟩ | ⟨_, hc⟩ <;> omega
  · rw [if_neg hg]
    constructor
    · intro h
      exfalso
      have h2 : (BitVec.ofNat 32 n.val).toNat = (10239#32).toNat := by rw [h]
      rw [hofn] at h2
      have : (10239#32).toNat = 10239 := by decide
      omega
    · intro h
      exfalso
      apply hg
      constructor
      · apply (BitVec.sle_iff_toInt_le).mpr; rw [h0]; omega
      · apply (BitVec.slt_iff_toInt_lt).mpr; rw [h1]; omega

/-! ## The indicator selection of a row -/

/-- The indicator sum over the padded table's rows has exactly one hit: the row the word names. -/
theorem gsel_of_lt (X : FVec Ideal SXP .f32) (r : BitVec 32) (h : r.toNat < 10240) (d : Fin 128) :
    gsel X r d = X (ix2 ⟨r.toNat, h⟩ d) := by
  unfold gsel
  rw [Finset.sum_eq_single (⟨r.toNat, h⟩ : Fin 10240)]
  · rw [oh_true, one_mul]
    apply BitVec.eq_of_toNat_eq
    rw [BitVec.toNat_ofNat]
    exact Nat.mod_eq_of_lt r.isLt
  · intro b _ hb
    rw [oh_false, zero_mul]
    intro hh
    apply hb
    apply Fin.ext
    have : (BitVec.ofNat 32 b.val).toNat = r.toNat := by rw [hh]
    rw [BitVec.toNat_ofNat, Nat.mod_eq_of_lt (by have := b.isLt; omega)] at this
    exact this
  · intro hh; exact absurd (Finset.mem_univ _) hh

/-- Selecting the padded table at an edge's clamped source word reads the table at the edge's source row. -/
theorem gsel_padX_clipW (x : FVec Ideal SX .f32) (ei : IVec SEI 32) (e : Fin 640000) (d : Fin 128) :
    gsel (padX x) (clipW (rowOf ei e)) d = x (ix2 (srcRow ei e) d) := by
  have hlt := clipW_lt (rowOf ei e)
  rw [gsel_of_lt (padX x) (clipW (rowOf ei e)) (by omega) d]
  unfold padX
  have hc : ((ix2 (⟨(clipW (rowOf ei e)).toNat, by omega⟩ : Fin 10240) d : SXP.Idx) 0).val < 10000 := hlt
  rw [dif_pos hc]
  congr 1
  have : (⟨(clipW (rowOf ei e)).toNat, hlt⟩ : Fin 10000) = srcRow ei e :=
    Fin.ext (clipW_toNat (rowOf ei e))
  rw [← this]

/-! ## The chunk coordinates enumerate the edges -/

/-- Core, chunk and lane are the row-major coordinates of an edge number. -/
def flatEquiv : Fin 2 × Fin 250 × Fin 1280 ≃ Fin 640000 where
  toFun p := flatE p.1 p.2.1 p.2.2
  invFun k := (⟨k.val / 320000, by have := k.isLt; omega⟩, ⟨k.val / 1280 % 250, by omega⟩,
    ⟨k.val % 1280, by omega⟩)
  left_inv := by
    rintro ⟨a, b, c⟩
    have := a.isLt; have := b.isLt; have := c.isLt
    refine Prod.ext (Fin.ext ?_) (Prod.ext (Fin.ext ?_) (Fin.ext ?_))
    · show ((a.val * 250 + b.val) * 1280 + c.val) / 320000 = a.val
      omega
    · show ((a.val * 250 + b.val) * 1280 + c.val) / 1280 % 250 = b.val
      omega
    · show ((a.val * 250 + b.val) * 1280 + c.val) % 1280 = c.val
      omega
  right_inv := by
    intro k
    have := k.isLt
    apply Fin.ext
    show (k.val / 320000 * 250 + k.val / 1280 % 250) * 1280 + k.val % 1280 = k.val
    omega

/-- The triple sum over core, chunk and lane is the sum over the edges. -/
theorem sum_flatE {M : Type*} [AddCommMonoid M] (f : Fin 640000 → M) :
    (∑ cc : Fin 2, ∑ i : Fin 250, ∑ e : Fin 1280, f (flatE cc i e)) = ∑ e : Fin 640000, f e := by
  rw [← Equiv.sum_comp flatEquiv f, Fintype.sum_prod_type]
  refine Finset.sum_congr rfl (fun cc _ => ?_)
  rw [Fintype.sum_prod_type]
  rfl

/-! ## One edge's term, and the totals -/

/-- One edge's indicator product is its contribution to the node's sum. -/
theorem term_sum (x : FVec Ideal SX .f32) (ei : IVec SEI 32) (e : Fin 640000) (n : Fin 10000) (d : Fin 128) :
    oh (BitVec.ofNat 32 (up n).val = padW (colOf ei e)) * gsel (padX x) (clipW (rowOf ei e)) d
      = if hits ei e n then x (ix2 (srcRow ei e) d) else 0 := by
  rw [gsel_padX_clipW]
  by_cases h : hits ei e n
  · rw [if_pos h, oh_true ((oh_padW _ _).mpr h), one_mul]
  · rw [if_neg h, oh_false (fun hh => h ((oh_padW _ _).mp hh)), zero_mul]

/-- One edge's indicator is its contribution to the node's count. -/
theorem term_cnt (ei : IVec SEI 32) (e : Fin 640000) (n : Fin 10000) :
    oh (BitVec.ofNat 32 (up n).val = padW (colOf ei e)) = if hits ei e n then 1 else 0 := by
  by_cases h : hits ei e n
  · rw [if_pos h, oh_true ((oh_padW _ _).mpr h)]
  · rw [if_neg h, oh_false (fun hh => h ((oh_padW _ _).mp hh))]

/-- One core's partial sum at a node row, as a sum over its chunks and lanes of the edges' contributions. -/
theorem psum_core (x : FVec Ideal SX .f32) (ei : IVec SEI 32) (cc : Fin 2) (n : Fin 10000) (d : Fin 128) :
    psum (chunkR ei) (chunkC ei) (padX x) cc (up n) d
      = ∑ i : Fin 250, ∑ e : Fin 1280,
          if hits ei (flatE cc i e) n then x (ix2 (srcRow ei (flatE cc i e)) d) else 0 := by
  unfold psum dsum
  refine Finset.sum_congr rfl (fun i _ => Finset.sum_congr rfl (fun e _ => ?_))
  exact term_sum x ei (flatE cc i e) n d

/-- One core's partial count at a node row, likewise. -/
theorem pcnt_core (ei : IVec SEI 32) (cc : Fin 2) (n : Fin 10000) :
    pcnt (chunkC ei) cc (up n)
      = ∑ i : Fin 250, ∑ e : Fin 1280, if hits ei (flatE cc i e) n then (1 : EReal) else 0 := by
  unfold pcnt dcnt
  refine Finset.sum_congr rfl (fun i _ => Finset.sum_congr rfl (fun e _ => ?_))
  exact term_cnt ei (flatE cc i e) n

/-- The two cores' partial sums add up to the node's sum. -/
theorem psum_total (x : FVec Ideal SX .f32) (ei : IVec SEI 32) (n : Fin 10000) (d : Fin 128) :
    psum (chunkR ei) (chunkC ei) (padX x) 0 (up n) d + psum (chunkR ei) (chunkC ei) (padX x) 1 (up n) d
      = nsum x ei n d := by
  have h := sum_flatE (fun e' : Fin 640000 => if hits ei e' n then x (ix2 (srcRow ei e') d) else 0)
  rw [Fin.sum_univ_two] at h
  rw [psum_core, psum_core]
  exact h

/-- The two cores' partial counts add up to the node's count. -/
theorem pcnt_total (ei : IVec SEI 32) (n : Fin 10000) :
    pcnt (chunkC ei) 0 (up n) + pcnt (chunkC ei) 1 (up n) = cnt ei n := by
  have h := sum_flatE (fun e' : Fin 640000 => if hits ei e' n then (1 : EReal) else 0)
  rw [Fin.sum_univ_two] at h
  rw [pcnt_core, pcnt_core]
  exact h

/-- The mean formed from the two cores' partial arrays is the aggregated mean. -/
theorem kmean_eq_mean (x : FVec Ideal SX .f32) (ei : IVec SEI 32) :
    kmean (fun y => psum (chunkR ei) (chunkC ei) (padX x) (y 0) (y 1) (y 2))
      (fun y => pcnt (chunkC ei) (y 0) (y 1)) = mean x ei := by
  funext j
  obtain ⟨a, b, rfl⟩ : ∃ (a : Fin 10000) (b : Fin 128), j = ix2 a b := ⟨j 0, j 1, eq_ix2 j⟩
  show Ideal.div
      (psum (chunkR ei) (chunkC ei) (padX x) 0 (up a) b + psum (chunkR ei) (chunkC ei) (padX x) 1 (up a) b)
      (max one32 (pcnt (chunkC ei) 0 (up a) + pcnt (chunkC ei) 1 (up a)))
    = Ideal.div (nsum x ei a b) (max one32 (cnt ei a))
  rw [psum_total, pcnt_total]

end Cert.Sage

end
-- ==== Proof.PreDecode.lean ====
/-
  The printed precondition, read back: its last conjunct is the conjunction over all 640000 edges of
  "the source id, read signed, is at least 0". So when the precondition's word is 1, every source id is
  non-negative.

  The chain of that conjunct: row 0 of the [2, 640000] id array is cut out as a [1, 640000] array, reshaped to a
  vector of 640000 words, compared signed-≥ with the zero word broadcast to the same length, and the 640000 bits are
  reduced by "and" from 1. A reduction by "and" that is 1 had a 1 at every element; a signed-≥ bit that is 1 says the
  right operand, read signed, is at most the left one; the right operand is the zero word and the left one is the
  source id of the edge.
-/
import proofs.«410679_j74045236183291_3_alg».proof.Proof.Gen.Pre_finite_inputs
import proofs.«410679_j74045236183291_3_alg».proof.Proof.Spec
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Decode

open Idealize.ShloMosaic Idealize.ShloMosaic.ValueIdx

/-- The scalar shape has one index. -/
instance subsingleton_scalarIdx : Subsingleton S_.Idx := ⟨fun _ _ => funext fun d => d.elim0⟩

/-- Row 0 of the id array, cut out and reshaped to a vector, reads at edge `e` the array at `(0, e)`. -/
theorem row0_apply (x1 : IVec S2x640000 32) (hs : S2x640000.Slices ![0, 0] S1x640000)
    (hc : S1x640000.ShapeCasts S640000) (e : Fin 640000) :
    shapeCast S640000 (extractStridedSlice S1x640000 ![0, 0] x1 hs) hc (ix1 e) = x1 (ix2 0 e) := by
  refine (shapeCast_apply _ hc (ix1 e) (ix2 (0 : Fin 1) e) ?_).trans ?_
  · rw [Shape.rowMajor_val_two, Shape.rowMajor_val_one]
    show 0 * 640000 + e.val = e.val
    omega
  · exact extractStridedSlice_apply _ _ hs (ix2 (0 : Fin 1) e) (ix2 (0 : Fin 2) e) (fun a => by
      match a with
      | ⟨0, _⟩ => rfl
      | ⟨1, _⟩ => exact (Nat.zero_add _).symm)

/-- When the precondition holds, every edge's source id, read signed, is non-negative. -/
theorem row_nonneg [Cert.Pre_finite_inputs.Facts] (x0 : FVec Ideal Cert.Pre_finite_inputs.S10000x128 .f32)
    (x1 : IVec Cert.Pre_finite_inputs.S2x640000 32) (x2 : FVec Ideal Cert.Pre_finite_inputs.S128x256 .f32)
    (x3 : FVec Ideal Cert.Pre_finite_inputs.S128 .f32)
    (h : Cert.Pre_finite_inputs.fn (F := Ideal) x0 x1 x2 x3 = (fun _ => 1#1)) :
    ∀ e : Fin 640000, 0 ≤ (Cert.Sage.rowOf x1 e).toInt := by
  intro e
  have h0 := congrFun h ValueIdx.ix0
  dsimp only [fn, fn_part1] at h0
  -- the last conjunct of the conjunction
  have h1 := (IntOp.andi_eq_one.1 h0).2
  -- every compared bit is 1
  have h2 := Host.reduce_andi_all _ _ _ _ _ h1 (ix1 e)
  -- the bit at edge `e`: 0 ≤ the source id, read signed
  have h3 := IntOp.cmpi_sge.1 h2
  rw [row0_apply] at h3
  exact h3

end Cert.Pre_finite_inputs.Decode

end
-- ==== Proof.lean ====
/-
  GraphSAGE mean aggregation: a Pallas kernel against its jnp reference, over the extended reals.

  Both programs compute, for every node `n` and feature `d`, the mean over the edges landing on `n` of the source
  rows of those edges, `nsum n d / max 1 (cnt n)`, concatenate it to the node's own row and apply one linear layer.
  The reference gathers the source rows and scatter-adds them by destination; the kernel forms the same sums as
  one-hot products, 1280 edges and 1280 table rows at a time, on two cores whose partial sums the host adds.

  The destination side agrees on every input: an id outside `[0, 9999]` is dropped by the reference's scatter and is
  sent by the kernel to a padding row that is sliced away. On the source side the kernel clamps an id into
  `[0, 9999]`, as the reference's gather does AFTER wrapping a negative id by 10000; the two agree exactly when no source
  id is negative, which the precondition states. No law used here needs finiteness: indicator products
  (`0 · v = 0`, `1 · v = v` for every extended real) and regrouped sums.

  The kernel's value is read off its generated frame run (the two counted loops of its body opened once, tile by tile;
  the 250 points of a core folded by induction), its host code before and after the region by the generated run of
  its operations; the reference's value off its generated run, its gather and two scatters read at an index by hand.
  The last six host operations of the two programs are one term.
-/
import proofs.«410679_j74045236183291_3_alg».proof.Defs
import proofs.«410679_j74045236183291_3_alg».proof.Proof.Gen.Kernel
import proofs.«410679_j74045236183291_3_alg».proof.Proof.Gen.Kernel.Frame
import proofs.«410679_j74045236183291_3_alg».proof.Proof.Gen.KernelIdeal
import proofs.«410679_j74045236183291_3_alg».proof.Proof.Gen.KernelIdeal.Frame
import proofs.«410679_j74045236183291_3_alg».proof.Proof.Gen.ReferenceIdeal
import proofs.«410679_j74045236183291_3_alg».proof.Proof.Gen.ReferenceIdeal.Run
import proofs.«410679_j74045236183291_3_alg».proof.Proof.Gen.ReferenceIdeal.Read
import proofs.«410679_j74045236183291_3_alg».proof.Proof.Gen.Pre_finite_inputs
import proofs.«410679_j74045236183291_3_alg».proof.Proof.HostTail
import proofs.«410679_j74045236183291_3_alg».proof.Proof.HostPrefix
import proofs.«410679_j74045236183291_3_alg».proof.Proof.RefSide
import proofs.«410679_j74045236183291_3_alg».proof.Proof.Algebra
import proofs.«410679_j74045236183291_3_alg».proof.Proof.PreDecode
import Idealize.ShloMosaic.Adequacy
import Idealize.ShloMosaic.Init

noncomputable section

namespace Cert.Proof

open Idealize.ShloMosaic Idealize.ShloMosaic.TcCoe Idealize.SL.Sem

/-- The two programs end with the same six host operations: concatenate with the node's own row, transpose the
    weights, one matrix product, the bias broadcast twice, one sum. -/
theorem tail_eq (a mn : FVec Ideal Cert.KernelIdeal.S10000x128 .f32) (w : FVec Ideal Cert.KernelIdeal.S128x256 .f32)
    (b : FVec Ideal Cert.KernelIdeal.S128 .f32) :
    Cert.ReferenceIdeal.RefValue.tailR a mn w b = Cert.KernelIdeal.HostTail.tailK a mn w b := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the common tail of the node rows, the aggregated mean, the weights and the bias: the kernel's
    partial arrays add up to the mean's sums (the chunked one-hot sums regrouped over the 640000 edges), the
    reference's gather and scatters are those sums when no source id is negative. -/
theorem algebraic : Cert.algebraic_KernelIdeal_ReferenceIdeal := by
  intro m ρ m' ρ' hpre hagree
  refine ⟨fun c => Cert.KernelIdeal.HostTail.tailK (m ((c.tc : Thread Cert.KernelIdeal.nD Cert.KernelIdeal.τ).loc Cert.KernelIdeal.main_arg0))
      (Cert.Sage.mean (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.HostTail.run m ρ)
    rw [Cert.KernelIdeal.HostPrefix.V_v11 m c, Cert.KernelIdeal.HostPrefix.V_v12 m c,
      Cert.KernelIdeal.HostPrefix.V_v13 m c, Cert.Sage.kmean_eq_mean]
  · have hrow := Cert.Pre_finite_inputs.Decode.row_nonneg _ _ _ _ (hpre 0)
    refine (θ_run Cert.ReferenceIdeal.defs _ _).mono (fun r h c => ⟨(h c).1.trans ?_, (h c).2⟩)
      (Cert.ReferenceIdeal.Value.run (F := Ideal) m' ρ')
    obtain rfl : c = 0 := Subsingleton.elim _ _
    rw [Cert.ReferenceIdeal.Read.val_main_v27_eq, (hagree 0).1, (hagree 0).2.1, (hagree 0).2.2.1, (hagree 0).2.2.2,
      Cert.ReferenceIdeal.RefValue.ref_eq _ _ _ _ hrow, tail_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
